-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x2048x1 : Shape := ⟨3, ![200, 2048, 1]⟩
abbrev S204x1 : Shape := ⟨2, ![204, 1]⟩
abbrev S204x51 : Shape := ⟨2, ![204, 51]⟩
abbrev S204 : Shape := ⟨1, ![204]⟩
abbrev S1x51 : Shape := ⟨2, ![1, 51]⟩
abbrev S1 : Shape := ⟨1, ![1]⟩
abbrev S_ : Shape := ⟨0, ![]⟩

class Facts : Prop where
  bcast_S_S200x2048x1 : S_.BroadcastsInDim S200x2048x1 (![] : Fin 0 → Fin S200x2048x1.rank)
  reducesTo_S200x2048x1_S_d0_1_2 : S200x2048x1.ReducesTo [0, 1, 2] S_
  h_S_ : 0 < S_.numel
  bcast_S_S204x1 : S_.BroadcastsInDim S204x1 (![] : Fin 0 → Fin S204x1.rank)
  reducesTo_S204x1_S_d0_1 : S204x1.ReducesTo [0, 1] S_
  bcast_S_S204x51 : S_.BroadcastsInDim S204x51 (![] : Fin 0 → Fin S204x51.rank)
  reducesTo_S204x51_S_d0_1 : S204x51.ReducesTo [0, 1] S_
  bcast_S_S204 : S_.BroadcastsInDim S204 (![] : Fin 0 → Fin S204.rank)
  reducesTo_S204_S_d0 : S204.ReducesTo [0] S_
  bcast_S_S1x51 : S_.BroadcastsInDim S1x51 (![] : Fin 0 → Fin S1x51.rank)
  reducesTo_S1x51_S_d0_1 : S1x51.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S204 .f32) (main_arg8 : FVec F S204 .f32) (main_arg9 : FVec F S1x51 .f32) (main_arg10 : FVec F S1 .f32) (main_v33 : IVec S_ 1) : IVec S_ 1 :=
  let main_v34 : FVec F S204 .f32 := Host.absf main_arg7
  let main_cst_12 : FVec F S_ .f32 := constant S_ .f32 0x7F800000#32
  let main_v35 : FVec F S204 .f32 := broadcastInDim S204 ![] bcast_S_S204 main_cst_12
  let main_v36 : IVec S204 1 := cmpf .olt main_v34 main_v35
  let main_c_13 : IVec S_ 1 := constantI S_ 1 1#1
  let main_v37 : IVec S_ 1 := (fun x v => Host.reduce IntOp.andi x v reducesTo_S204_S_d0 h_S_) main_v36 main_c_13
  let main_v38 : IVec S_ 1 := andi main_v33 main_v37
  let main_v39 : FVec F S204 .f32 := Host.absf main_arg8
  let main_cst_14 : FVec F S_ .f32 := constant S_ .f32 0x7F800000#32
  let main_v40 : FVec F S204 .f32 := broadcastInDim S204 ![] bcast_S_S204 main_cst_14
  let main_v41 : IVec S204 1 := cmpf .olt main_v39 main_v40
  let main_c_15 : IVec S_ 1 := constantI S_ 1 1#1
  let main_v42 : IVec S_ 1 := (fun x v => Host.reduce IntOp.andi x v reducesTo_S204_S_d0 h_S_) main_v41 main_c_15
  let main_v43 : IVec S_ 1 := andi main_v38 main_v42
  let main_v44 : FVec F S1x51 .f32 := Host.absf main_arg9
  let main_cst_16 : FVec F S_ .f32 := constant S_ .f32 0x7F800000#32
  let main_v45 : FVec F S1x51 .f32 := broadcastInDim S1x51 ![] bcast_S_S1x51 main_cst_16
  let main_v46 : IVec S1x51 1 := cmpf .olt main_v44 main_v45
  let main_c_17 : IVec S_ 1 := constantI S_ 1 1#1
  let main_v47 : IVec S_ 1 := (fun x v => Host.reduce IntOp.andi x v reducesTo_S1x51_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S204 .f32) (main_arg5 : FVec F S204x51 .f32) (main_arg6 : FVec F S204x51 .f32) (main_arg7 : FVec F S204 .f32) (main_arg8 : FVec F S204 .f32) (main_arg9 : FVec F S1x51 .f32) (main_arg10 : FVec F S1 .f32) (main_v13 : IVec S_ 1) (main_v16 : IVec S204 1) : IVec S_ 1 :=
  let main_c_5 : IVec S_ 1 := constantI S_ 1 1#1
  let main_v17 : IVec S_ 1 := (fun x v => Host.reduce IntOp.andi x v reducesTo_S204_S_d0 h_S_) main_v16 main_c_5
  let main_v18 : IVec S_ 1 := andi main_v13 main_v17
  let main_v19 : FVec F S204 .f32 := Host.absf main_arg4
  let main_cst_6 : FVec F S_ .f32 := constant S_ .f32 0x7F800000#32
  let main_v20 : FVec F S204 .f32 := broadcastInDim S204 ![] bcast_S_S204 main_cst_6
  let main_v21 : IVec S204 1 := cmpf .olt main_v19 main_v20
  let main_c_7 : IVec S_ 1 := constantI S_ 1 1#1
  let main_v22 : IVec S_ 1 := (fun x v => Host.reduce IntOp.andi x v reducesTo_S204_S_d0 h_S_) main_v21 main_c_7
  let main_v23 : IVec S_ 1 := andi main_v18 main_v22
  let main_v24 : FVec F S204x51 .f32 := Host.absf main_arg5
  let main_cst_8 : FVec F S_ .f32 := constant S_ .f32 0x7F800000#32
  let main_v25 : FVec F S204x51 .f32 := broadcastInDim S204x51 ![] bcast_S_S204x51 main_cst_8
  let main_v26 : IVec S204x51 1 := cmpf .olt main_v24 main_v25
  let main_c_9 : IVec S_ 1 := constantI S_ 1 1#1
  let main_v27 : IVec S_ 1 := (fun x v => Host.reduce IntOp.andi x v reducesTo_S204x51_S_d0_1 h_S_) main_v26 main_c_9
  let main_v28 : IVec S_ 1 := andi main_v23 main_v27
  let main_v29 : FVec F S204x51 .f32 := Host.absf main_arg6
  let main_cst_10 : FVec F S_ .f32 := constant S_ .f32 0x7F800000#32
  let main_v30 : FVec F S204x51 .f32 := broadcastInDim S204x51 ![] bcast_S_S204x51 main_cst_10
  let main_v31 : IVec S204x51 1 := cmpf .olt main_v29 main_v30
  let main_c_11 : IVec S_ 1 := constantI S_ 1 1#1
  let main_v32 : IVec S_ 1 := (fun x v => Host.reduce IntOp.andi x v reducesTo_S204x51_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S200x2048x1 .f32) (main_arg1 : FVec F S204x1 .f32) (main_arg2 : FVec F S204x51 .f32) (main_arg3 : FVec F S204 .f32) (main_arg4 : FVec F S204 .f32) (main_arg5 : FVec F S204x51 .f32) (main_arg6 : FVec F S204x51 .f32) (main_arg7 : FVec F S204 .f32) (main_arg8 : FVec F S204 .f32) (main_arg9 : FVec F S1x51 .f32) (main_arg10 : FVec F S1 .f32) : IVec S_ 1 :=
  let main_v0 : FVec F S200x2048x1 .f32 := Host.absf main_arg0
  let main_cst : FVec F S_ .f32 := constant S_ .f32 0x7F800000#32
  let main_v1 : FVec F S200x2048x1 .f32 := broadcastInDim S200x2048x1 ![] bcast_S_S200x2048x1 main_cst
  let main_v2 : IVec S200x2048x1 1 := cmpf .olt main_v0 main_v1
  let main_c : IVec S_ 1 := constantI S_ 1 1#1
  let main_v3 : IVec S_ 1 := (fun x v => Host.reduce IntOp.andi x v reducesTo_S200x2048x1_S_d0_1_2 h_S_) main_v2 main_c
  let main_v4 : FVec F S204x1 .f32 := Host.absf main_arg1
  let main_cst_0 : FVec F S_ .f32 := constant S_ .f32 0x7F800000#32
  let main_v5 : FVec F S204x1 .f32 := broadcastInDim S204x1 ![] bcast_S_S204x1 main_cst_0
  let main_v6 : IVec S204x1 1 := cmpf .olt main_v4 main_v5
  let main_c_1 : IVec S_ 1 := constantI S_ 1 1#1
  let main_v7 : IVec S_ 1 := (fun x v => Host.reduce IntOp.andi x v reducesTo_S204x1_S_d0_1 h_S_) main_v6 main_c_1
  let main_v8 : IVec S_ 1 := andi main_v3 main_v7
  let main_v9 : FVec F S204x51 .f32 := Host.absf main_arg2
  let main_cst_2 : FVec F S_ .f32 := constant S_ .f32 0x7F800000#32
  let main_v10 : FVec F S204x51 .f32 := broadcastInDim S204x51 ![] bcast_S_S204x51 main_cst_2
  let main_v11 : IVec S204x51 1 := cmpf .olt main_v9 main_v10
  let main_c_3 : IVec S_ 1 := constantI S_ 1 1#1
  let main_v12 : IVec S_ 1 := (fun x v => Host.reduce IntOp.andi x v reducesTo_S204x51_S_d0_1 h_S_) main_v11 main_c_3
  let main_v13 : IVec S_ 1 := andi main_v8 main_v12
  let main_v14 : FVec F S204 .f32 := Host.absf main_arg3
  let main_cst_4 : FVec F S_ .f32 := constant S_ .f32 0x7F800000#32
  let main_v15 : FVec F S204 .f32 := broadcastInDim S204 ![] bcast_S_S204 main_cst_4
  let main_v16 : IVec S204 1 := cmpf .olt main_v14 main_v15
  fn_part1 (F := F) main_arg4 main_arg5 main_arg6 main_arg7 main_arg8 main_arg9 main_arg10 main_v13 main_v16
-- ==== Kernel.lean ====
abbrev S200x2048x1 : Shape := ⟨3, ![200, 2048, 1]⟩
abbrev S204x1 : Shape := ⟨2, ![204, 1]⟩
abbrev S204x51 : Shape := ⟨2, ![204, 51]⟩
abbrev S204 : Shape := ⟨1, ![204]⟩
abbrev S1x51 : Shape := ⟨2, ![1, 51]⟩
abbrev S1 : Shape := ⟨1, ![1]⟩
abbrev S51x1 : Shape := ⟨2, ![51, 1]⟩
abbrev S153x1 : Shape := ⟨2, ![153, 1]⟩
abbrev S1x153 : Shape := ⟨2, ![1, 153]⟩
abbrev S51 : Shape := ⟨1, ![51]⟩
abbrev S153 : Shape := ⟨1, ![153]⟩
abbrev S51x51 : Shape := ⟨2, ![51, 51]⟩
abbrev S153x51 : Shape := ⟨2, ![153, 51]⟩
abbrev S51x153 : Shape := ⟨2, ![51, 153]⟩
abbrev S1x1 : Shape := ⟨2, ![1, 1]⟩
abbrev S409600x1 : Shape := ⟨2, ![409600, 1]⟩
abbrev S2048x1 : Shape := ⟨2, ![2048, 1]⟩
abbrev S2048x153 : Shape := ⟨2, ![2048, 153]⟩
abbrev S2048x51 : Shape := ⟨2, ![2048, 51]⟩

abbrev nBuf : Space → Nat
  | .hbm => 42
  | .vmem => 10
  | .smem => 0
  | _ => 0

abbrev bufTy : (tb : Table) → Fin (tcTables nBuf tb) → BufTy
  | .hbm, ⟨0, _⟩ => ⟨S200x2048x1, .f32⟩
  | .hbm, ⟨1, _⟩ => ⟨S204x1, .f32⟩
  | .hbm, ⟨2, _⟩ => ⟨S204x51, .f32⟩
  | .hbm, ⟨3, _⟩ => ⟨S204, .f32⟩
  | .hbm, ⟨4, _⟩ => ⟨S204, .f32⟩
  | .hbm, ⟨5, _⟩ => ⟨S204x51, .f32⟩
  | .hbm, ⟨6, _⟩ => ⟨S204x51, .f32⟩
  | .hbm, ⟨7, _⟩ => ⟨S204, .f32⟩
  | .hbm, ⟨8, _⟩ => ⟨S204, .f32⟩
  | .hbm, ⟨9, _⟩ => ⟨S1x51, .f32⟩
  | .hbm, ⟨10, _⟩ => ⟨S1, .f32⟩
  | .hbm, ⟨11, _⟩ => ⟨S51x1, .f32⟩
  | .hbm, ⟨12, _⟩ => ⟨S51x1, .f32⟩
  | .hbm, ⟨13, _⟩ => ⟨S51x1, .f32⟩
  | .hbm, ⟨14, _⟩ => ⟨S51x1, .f32⟩
  | .hbm, ⟨15, _⟩ => ⟨S153x1, .f32⟩
  | .hbm, ⟨16, _⟩ => ⟨S1x153, .f32⟩
  | .hbm, ⟨17, _⟩ => ⟨S204, .f32⟩
  | .hbm, ⟨18, _⟩ => ⟨S51, .f32⟩
  | .hbm, ⟨19, _⟩ => ⟨S51, .f32⟩
  | .hbm, ⟨20, _⟩ => ⟨S51, .f32⟩
  | .hbm, ⟨21, _⟩ => ⟨S51, .f32⟩
  | .hbm, ⟨22, _⟩ => ⟨S153, .f32⟩
  | .hbm, ⟨23, _⟩ => ⟨S1x153, .f32⟩
  | .hbm, ⟨24, _⟩ => ⟨S51x51, .f32⟩
  | .hbm, ⟨25, _⟩ => ⟨S51x51, .f32⟩
  | .hbm, ⟨26, _⟩ => ⟨S51x51, .f32⟩
  | .hbm, ⟨27, _⟩ => ⟨S51x51, .f32⟩
  | .hbm, ⟨28, _⟩ => ⟨S153x51, .f32⟩
  | .hbm, ⟨29, _⟩ => ⟨S51x153, .f32⟩
  | .hbm, ⟨30, _⟩ => ⟨S204, .f32⟩
  | .hbm, ⟨31, _⟩ => ⟨S51, .f32⟩
  | .hbm, ⟨32, _⟩ => ⟨S51, .f32⟩
  | .hbm, ⟨33, _⟩ => ⟨S51, .f32⟩
  | .hbm, ⟨34, _⟩ => ⟨S51, .f32⟩
  | .hbm, ⟨35, _⟩ => ⟨S153, .f32⟩
  | .hbm, ⟨36, _⟩ => ⟨S1x153, .f32⟩
  | .hbm, ⟨37, _⟩ => ⟨S51x1, .f32⟩
  | .hbm, ⟨38, _⟩ => ⟨S1x1, .f32⟩
  | .hbm, ⟨39, _⟩ => ⟨S409600x1, .f32⟩
  | .hbm, ⟨40, _⟩ => ⟨S409600x1, .f32⟩
  | .hbm, ⟨41, _⟩ => ⟨S200x2048x1, .f32⟩
  | .local _ .vmem, ⟨0, _⟩ => ⟨S2048x1, .f32⟩
  | .local _ .vmem, ⟨1, _⟩ => ⟨S2048x1, .f32⟩
  | .local _ .vmem, ⟨2, _⟩ => ⟨S1x153, .f32⟩
  | .local _ .vmem, ⟨3, _⟩ => ⟨S1x153, .f32⟩
  | .local _ .vmem, ⟨4, _⟩ => ⟨S51x153, .f32⟩
  | .local _ .vmem, ⟨5, _⟩ => ⟨S1x153, .f32⟩
  | .local _ .vmem, ⟨6, _⟩ => ⟨S51x1, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S200x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x153 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x153 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S51x153 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x153 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S51x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S204x1_S51x1_0_0 : S204x1.Slices ![0, 0] S51x1
  slices_S204x1_S51x1_51_0 : S204x1.Slices ![51, 0] S51x1
  slices_S204x1_S51x1_102_0 : S204x1.Slices ![102, 0] S51x1
  slices_S204x1_S51x1_153_0 : S204x1.Slices ![153, 0] S51x1
  concatenates_S51x1_S51x1_S51x1_S153x1_d0 : Shape.Concatenates [S51x1, S51x1, S51x1] S153x1 0
  shapeCasts_S153x1_S1x153 : S153x1.ShapeCasts S1x153
  slices_S204_S51_0 : S204.Slices ![0] S51
  slices_S204_S51_51 : S204.Slices ![51] S51
  slices_S204_S51_102 : S204.Slices ![102] S51
  slices_S204_S51_153 : S204.Slices ![153] S51
  concatenates_S51_S51_S51_S153_d0 : Shape.Concatenates [S51, S51, S51] S153 0
  shapeCasts_S153_S1x153 : S153.ShapeCasts S1x153
  slices_S204x51_S51x51_0_0 : S204x51.Slices ![0, 0] S51x51
  slices_S204x51_S51x51_51_0 : S204x51.Slices ![51, 0] S51x51
  slices_S204x51_S51x51_102_0 : S204x51.Slices ![102, 0] S51x51
  slices_S204x51_S51x51_153_0 : S204x51.Slices ![153, 0] S51x51
  concatenates_S51x51_S51x51_S51x51_S153x51_d0 : Shape.Concatenates [S51x51, S51x51, S51x51] S153x51 0
  transposes_S153x51_S51x153_1_0 : S153x51.Transposes [1, 0] S51x153
  transposes_S1x51_S51x1_1_0 : S1x51.Transposes [1, 0] S51x1
  shapeCasts_S1_S1x1 : S1.ShapeCasts S1x1
  shapeCasts_S200x2048x1_S409600x1 : S200x2048x1.ShapeCasts S409600x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x153_S1x153_0_0 : ∀ a, (![0, 0] : Fin 2 → Nat) a + S1x153.size a ≤ S1x153.size a
  h_S1x153 : 0 < S1x153.numel
  shapeCasts_S1x153_S1x153 : S1x153.ShapeCasts S1x153
  broadcasts_S2048x1_S2048x153 : S2048x1.Broadcasts S2048x153
  broadcasts_S1x153_S2048x153 : S1x153.Broadcasts S2048x153
  slices_S2048x153_o0_0_S2048x51 : S2048x153.Slices ![0, 0] S2048x51
  slices_S2048x153_o0_51_S2048x51 : S2048x153.Slices ![0, 51] S2048x51
  slices_S2048x153_o0_102_S2048x51 : S2048x153.Slices ![0, 102] S2048x51
  inb_S51x153_S51x153_0_0 : ∀ a, (![0, 0] : Fin 2 → Nat) a + S51x153.size a ≤ S51x153.size a
  h_S51x153 : 0 < S51x153.numel
  shapeCasts_S51x153_S51x153 : S51x153.ShapeCasts S51x153
  bitsLt_bf16_f32 : FTy.bits .bf16 < FTy.bits .f32
  inb_S51x1_S51x1_0_0 : ∀ a, (![0, 0] : Fin 2 → Nat) a + S51x1.size a ≤ S51x1.size a
  h_S51x1 : 0 < S51x1.numel
  shapeCasts_S51x1_S51x1 : S51x1.ShapeCasts S51x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S409600x1_S200x2048x1 : S409600x1.ShapeCasts S200x2048x1
  dot_S2048x51_S51x153_S2048x153_1_0_0_1_n_n_wf : DotDims.WF S2048x51 S51x153 S2048x153 [1] [0] [0] [1] [] []
  dot_S2048x51_S51x1_S2048x1_1_0_0_1_n_n_wf : DotDims.WF S2048x51 S51x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S409600x1.size a
  hwx0_0 : ∀ i : grid0.Coords, EltTy.bits .f32 = 32 ∨ (Rect.block (s := S409600x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x153.size a ≤ S1x153.size a
  hwx0_1 : ∀ i : grid0.Coords, EltTy.bits .f32 = 32 ∨ (Rect.block (s := S1x153) S1x153.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x153.size a ≤ S1x153.size a
  hwx0_2 : ∀ i : grid0.Coords, EltTy.bits .f32 = 32 ∨ (Rect.block (s := S1x153) S1x153.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S51x153.size a ≤ S51x153.size a
  hwx0_3 : ∀ i : grid0.Coords, EltTy.bits .f32 = 32 ∨ (Rect.block (s := S51x153) S51x153.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x153.size a ≤ S1x153.size a
  hwx0_4 : ∀ i : grid0.Coords, EltTy.bits .f32 = 32 ∨ (Rect.block (s := S1x153) S1x153.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S51x1.size a ≤ S51x1.size a
  hwx0_5 : ∀ i : grid0.Coords, EltTy.bits .f32 = 32 ∨ (Rect.block (s := S51x1) S51x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S409600x1.size a
  hwx0_7 : ∀ i : grid0.Coords, EltTy.bits .f32 = 32 ∨ (Rect.block (s := S409600x1) S2048x1.size (cc0_transform_7 i) (hinb0_7 i)).WholeWords (EltTy.packing .f32)

variable [Facts₀]

def dot_S2048x51_S51x153_S2048x153_1_0_0_1_n_n : DotDims S2048x51 S51x153 S2048x153 where
  lhsContracting := [1]
  rhsContracting := [0]
  lhsNonContracting := [0]
  rhsNonContracting := [1]
  lhsBatch := []
  rhsBatch := []
  wf := dot_S2048x51_S51x153_S2048x153_1_0_0_1_n_n_wf
def dot_S2048x51_S51x1_S2048x1_1_0_0_1_n_n : DotDims S2048x51 S51x1 S2048x1 where
  lhsContracting := [1]
  rhsContracting := [0]
  lhsNonContracting := [0]
  rhsNonContracting := [1]
  lhsBatch := []
  rhsBatch := []
  wf := dot_S2048x51_S51x1_S2048x1_1_0_0_1_n_n_wf

abbrev win0_0 : Pipeline.Window sig grid0 :=
  Pipeline.Window.ofSpec (Memref.whole main_v28) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x153.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x153.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S51x153.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x153.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S51x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200x2048x1 : Shape := ⟨3, ![200, 2048, 1]⟩
abbrev S204x1 : Shape := ⟨2, ![204, 1]⟩
abbrev S204x51 : Shape := ⟨2, ![204, 51]⟩
abbrev S204 : Shape := ⟨1, ![204]⟩
abbrev S1x51 : Shape := ⟨2, ![1, 51]⟩
abbrev S1 : Shape := ⟨1, ![1]⟩
abbrev S409600x1 : Shape := ⟨2, ![409600, 1]⟩
abbrev S1x204 : Shape := ⟨2, ![1, 204]⟩
abbrev S409600x204 : Shape := ⟨2, ![409600, 204]⟩
abbrev S409600x51 : Shape := ⟨2, ![409600, 51]⟩
abbrev S_ : Shape := ⟨0, ![]⟩
abbrev S51x204 : Shape := ⟨2, ![51, 204]⟩
abbrev S51x1 : Shape := ⟨2, ![51, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S200x2048x1, .f32⟩
  | .hbm, ⟨1, _⟩ => ⟨S204x1, .f32⟩
  | .hbm, ⟨2, _⟩ => ⟨S204x51, .f32⟩
  | .hbm, ⟨3, _⟩ => ⟨S204, .f32⟩
  | .hbm, ⟨4, _⟩ => ⟨S204, .f32⟩
  | .hbm, ⟨5, _⟩ => ⟨S204x51, .f32⟩
  | .hbm, ⟨6, _⟩ => ⟨S204x51, .f32⟩
  | .hbm, ⟨7, _⟩ => ⟨S204, .f32⟩
  | .hbm, ⟨8, _⟩ => ⟨S204, .f32⟩
  | .hbm, ⟨9, _⟩ => ⟨S1x51, .f32⟩
  | .hbm, ⟨10, _⟩ => ⟨S1, .f32⟩
  | .hbm, ⟨11, _⟩ => ⟨S409600x1, .f32⟩
  | .hbm, ⟨12, _⟩ => ⟨S1x204, .f32⟩
  | .hbm, ⟨13, _⟩ => ⟨S409600x204, .f32⟩
  | .hbm, ⟨14, _⟩ => ⟨S204, .f32⟩
  | .hbm, ⟨15, _⟩ => ⟨S1x204, .f32⟩
  | .hbm, ⟨16, _⟩ => ⟨S409600x204, .f32⟩
  | .hbm, ⟨17, _⟩ => ⟨S409600x204, .f32⟩
  | .hbm, ⟨18, _⟩ => ⟨S409600x51, .f32⟩
  | .hbm, ⟨19, _⟩ => ⟨S409600x51, .f32⟩
  | .hbm, ⟨20, _⟩ => ⟨S409600x51, .f32⟩
  | .hbm, ⟨21, _⟩ => ⟨S409600x51, .f32⟩
  | .hbm, ⟨22, _⟩ => ⟨S409600x51, .f32⟩
  | .hbm, ⟨23, _⟩ => ⟨S409600x51, .f32⟩
  | .hbm, ⟨24, _⟩ => ⟨S_, .f32⟩
  | .hbm, ⟨25, _⟩ => ⟨S409600x51, .f32⟩
  | .hbm, ⟨26, _⟩ => ⟨S409600x51, .f32⟩
  | .hbm, ⟨27, _⟩ => ⟨S_, .f32⟩
  | .hbm, ⟨28, _⟩ => ⟨S409600x51, .f32⟩
  | .hbm, ⟨29, _⟩ => ⟨S409600x51, .f32⟩
  | .hbm, ⟨30, _⟩ => ⟨S409600x51, .f32⟩
  | .hbm, ⟨31, _⟩ => ⟨S409600x51, .f32⟩
  | .hbm, ⟨32, _⟩ => ⟨S409600x51, .f32⟩
  | .hbm, ⟨33, _⟩ => ⟨S_, .f32⟩
  | .hbm, ⟨34, _⟩ => ⟨S409600x51, .f32⟩
  | .hbm, ⟨35, _⟩ => ⟨S409600x51, .f32⟩
  | .hbm, ⟨36, _⟩ => ⟨S_, .f32⟩
  | .hbm, ⟨37, _⟩ => ⟨S409600x51, .f32⟩
  | .hbm, ⟨38, _⟩ => ⟨S409600x51, .f32⟩
  | .hbm, ⟨39, _⟩ => ⟨S409600x51, .f32⟩
  | .hbm, ⟨40, _⟩ => ⟨S409600x51, .f32⟩
  | .hbm, ⟨41, _⟩ => ⟨S409600x51, .f32⟩
  | .hbm, ⟨42, _⟩ => ⟨S51x204, .f32⟩
  | .hbm, ⟨43, _⟩ => ⟨S409600x204, .f32⟩
  | .hbm, ⟨44, _⟩ => ⟨S204, .f32⟩
  | .hbm, ⟨45, _⟩ => ⟨S1x204, .f32⟩
  | .hbm, ⟨46, _⟩ => ⟨S409600x204, .f32⟩
  | .hbm, ⟨47, _⟩ => ⟨S409600x204, .f32⟩
  | .hbm, ⟨48, _⟩ => ⟨S409600x51, .f32⟩
  | .hbm, ⟨49, _⟩ => ⟨S409600x51, .f32⟩
  | .hbm, ⟨50, _⟩ => ⟨S409600x51, .f32⟩
  | .hbm, ⟨51, _⟩ => ⟨S409600x51, .f32⟩
  | .hbm, ⟨52, _⟩ => ⟨S409600x51, .f32⟩
  | .hbm, ⟨53, _⟩ => ⟨S409600x51, .f32⟩
  | .hbm, ⟨54, _⟩ => ⟨S_, .f32⟩
  | .hbm, ⟨55, _⟩ => ⟨S409600x51, .f32⟩
  | .hbm, ⟨56, _⟩ => ⟨S409600x51, .f32⟩
  | .hbm, ⟨57, _⟩ => ⟨S_, .f32⟩
  | .hbm, ⟨58, _⟩ => ⟨S409600x51, .f32⟩
  | .hbm, ⟨59, _⟩ => ⟨S409600x51, .f32⟩
  | .hbm, ⟨60, _⟩ => ⟨S409600x51, .f32⟩
  | .hbm, ⟨61, _⟩ => ⟨S409600x51, .f32⟩
  | .hbm, ⟨62, _⟩ => ⟨S409600x51, .f32⟩
  | .hbm, ⟨63, _⟩ => ⟨S_, .f32⟩
  | .hbm, ⟨64, _⟩ => ⟨S409600x51, .f32⟩
  | .hbm, ⟨65, _⟩ => ⟨S409600x51, .f32⟩
  | .hbm, ⟨66, _⟩ => ⟨S_, .f32⟩
  | .hbm, ⟨67, _⟩ => ⟨S409600x51, .f32⟩
  | .hbm, ⟨68, _⟩ => ⟨S409600x51, .f32⟩
  | .hbm, ⟨69, _⟩ => ⟨S409600x51, .f32⟩
  | .hbm, ⟨70, _⟩ => ⟨S409600x51, .f32⟩
  | .hbm, ⟨71, _⟩ => ⟨S409600x51, .f32⟩
  | .hbm, ⟨72, _⟩ => ⟨S51x1, .f32⟩
  | .hbm, ⟨73, _⟩ => ⟨S409600x1, .f32⟩
  | .hbm, ⟨74, _⟩ => ⟨S1x1, .f32⟩
  | .hbm, ⟨75, _⟩ => ⟨S409600x1, .f32⟩
  | .hbm, ⟨76, _⟩ => ⟨S409600x1, .f32⟩
  | .hbm, ⟨77, _⟩ => ⟨S200x2048x1, .f32⟩
  | _, _ => ⟨S200x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  shapeCasts_S200x2048x1_S409600x1 : S200x2048x1.ShapeCasts S409600x1
  transposes_S204x1_S1x204_1_0 : S204x1.Transposes [1, 0] S1x204
  bcast_S204_S1x204_1 : S204.BroadcastsInDim S1x204 (![1] : Fin 1 → Fin S1x204.rank)
  bcast_S1x204_S409600x204_0_1 : S1x204.BroadcastsInDim S409600x204 (![0, 1] : Fin 2 → Fin S409600x204.rank)
  slices_S409600x204_S409600x51_0_0 : S409600x204.Slices ![0, 0] S409600x51
  slices_S409600x204_S409600x51_0_51 : S409600x204.Slices ![0, 51] S409600x51
  slices_S409600x204_S409600x51_0_102 : S409600x204.Slices ![0, 102] S409600x51
  slices_S409600x204_S409600x51_0_153 : S409600x204.Slices ![0, 153] S409600x51
  bcast_S_S409600x51 : S_.BroadcastsInDim S409600x51 (![] : Fin 0 → Fin S409600x51.rank)
  transposes_S204x51_S51x204_1_0 : S204x51.Transposes [1, 0] S51x204
  transposes_S1x51_S51x1_1_0 : S1x51.Transposes [1, 0] S51x1
  bcast_S1_S1x1_1 : S1.BroadcastsInDim S1x1 (![1] : Fin 1 → Fin S1x1.rank)
  bcast_S1x1_S409600x1_0_1 : S1x1.BroadcastsInDim S409600x1 (![0, 1] : Fin 2 → Fin S409600x1.rank)
  shapeCasts_S409600x1_S200x2048x1 : S409600x1.ShapeCasts S200x2048x1
  dot_S409600x1_S1x204_S409600x204_1_0_0_1_n_n_wf : DotDims.WF S409600x1 S1x204 S409600x204 [1] [0] [0] [1] [] []
  dot_S409600x51_S51x204_S409600x204_1_0_0_1_n_n_wf : DotDims.WF S409600x51 S51x204 S409600x204 [1] [0] [0] [1] [] []
  dot_S409600x51_S51x1_S409600x1_1_0_0_1_n_n_wf : DotDims.WF S409600x51 S51x1 S409600x1 [1] [0] [0] [1] [] []

variable [Facts₀]

def dot_S409600x1_S1x204_S409600x204_1_0_0_1_n_n : DotDims S409600x1 S1x204 S409600x204 where
  lhsContracting := [1]
  rhsContracting := [0]
  lhsNonContracting := [0]
  rhsNonContracting := [1]
  lhsBatch := []
  rhsBatch := []
  wf := dot_S409600x1_S1x204_S409600x204_1_0_0_1_n_n_wf
def dot_S409600x51_S51x204_S409600x204_1_0_0_1_n_n : DotDims S409600x51 S51x204 S409600x204 where
  lhsContracting := [1]
  rhsContracting := [0]
  lhsNonContracting := [0]
  rhsNonContracting := [1]
  lhsBatch := []
  rhsBatch := []
  wf := dot_S409600x51_S51x204_S409600x204_1_0_0_1_n_n_wf
def dot_S409600x51_S51x1_S409600x1_1_0_0_1_n_n : DotDims S409600x51 S51x1 S409600x1 where
  lhsContracting := [1]
  rhsContracting := [0]
  lhsNonContracting := [0]
  rhsNonContracting := [1]
  lhsBatch := []
  rhsBatch := []
  wf := dot_S409600x51_S51x1_S409600x1_1_0_0_1_n_n_wf

class Facts : Prop extends Facts₀ where

variable [Facts]
-- ==== Proof.KernelAround.lean ====
/-
  The program around its kernel region.

  @main is 29 host operations (slices, concatenations, transposes, two additions and reshapes that pack the weights the
  kernel needs and flatten the input to 409600 rows), the one kernel region, and one host operation after it (the
  reshape of the region's 409600 × 1 result back to 200 × 2048 × 1). The host operations before the region write
  only their own result buffers, so every argument array reaches the region as launched; the one after it writes
  only the program's result, so every argument array also ends as launched. This module fixes the buffer contents
  at the region's entry, reduces @main to "the region, continued by the last reshape", and turns a run that ends in
  the pipeline library's post (each staged array at what the proof data computes, every other buffer as the tail
  leaves it) into the frame claim's post.
-/
import proofs.«156167_j22368189678306_1_alg».proof.Proof.Gen.Kernel.Launch
import proofs.«156167_j22368189678306_1_alg».proof.Proof.Gen.Kernel.Skeleton
import proofs.«156167_j22368189678306_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry -/

/-- Core `c`'s buffer contents when the region is entered: the launch memory after the 29 host operations. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it; run from the launch memory it
    reaches the region at `V`, with the last reshape as what remains. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The reshape after the region -/

/-- It touches only buffers a line after the region may touch. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes the program's result buffer, which is none of the eight staged arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The argument arrays are written by no host operation -/

/-- A buffer none of the 29 host operations writes reaches the region as launched. -/
theorem V_of_kept (c : Dev nD) (b : Ref sig .tc)
    (hb : ∀ op ∈ (List.flatten [hostOps0] : List (HloOp τ sig (Elt F))), Proc.devRef .tc b ∉ op.writes) :
    V m c b = m ((c : Thread nD τ).loc b) :=
  StableHlo.after_of_forall_not_mem (b := Proc.devRef .tc b) _ _ hb

/-- A buffer that is no staged array and that the last reshape does not write ends as it reached the region. -/
theorem tail_of_kept (dats : (p : Fin 1) → (c : Dev nD) → Dat τ (Elt F) Unit ℕ (UR sig nD τ) ℕ (cfgs p) c) (c : Dev nD)
    (b : Ref sig .tc) (hb : ∀ op ∈ (List.flatten [hostOps1] : List (HloOp τ sig (Elt F))), Proc.devRef .tc b ∉ op.writes)
    (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hb,
    Pipeline.withArrays_of_ne _ c (V0 m c) _ b hw]

theorem before_arg0 : ∀ op ∈ (List.flatten [hostOps0] : List (HloOp τ sig (Elt F))), Proc.devRef .tc main_arg0 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg0 : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 0 ends as launched. -/
theorem kept_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_of_kept m dats c main_arg0 after_arg0 (by decide)).trans (V_of_kept m c main_arg0 before_arg0)
theorem before_arg1 : ∀ op ∈ (List.flatten [hostOps0] : List (HloOp τ sig (Elt F))), Proc.devRef .tc main_arg1 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg1 : ∀ op ∈ (List.flatten [hostOps1] : List (HloOp τ sig (Elt F))), Proc.devRef .tc main_arg1 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 1 ends as launched. -/
theorem kept_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_of_kept m dats c main_arg1 after_arg1 (by decide)).trans (V_of_kept m c main_arg1 before_arg1)
theorem before_arg2 : ∀ op ∈ (List.flatten [hostOps0] : List (HloOp τ sig (Elt F))), Proc.devRef .tc main_arg2 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg2 : ∀ op ∈ (List.flatten [hostOps1] : List (HloOp τ sig (Elt F))), Proc.devRef .tc main_arg2 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 2 ends as launched. -/
theorem kept_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_of_kept m dats c main_arg2 after_arg2 (by decide)).trans (V_of_kept m c main_arg2 before_arg2)
theorem before_arg3 : ∀ op ∈ (List.flatten [hostOps0] : List (HloOp τ sig (Elt F))), Proc.devRef .tc main_arg3 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg3 : ∀ op ∈ (List.flatten [hostOps1] : List (HloOp τ sig (Elt F))), Proc.devRef .tc main_arg3 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 3 ends as launched. -/
theorem kept_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_of_kept m dats c main_arg3 after_arg3 (by decide)).trans (V_of_kept m c main_arg3 before_arg3)
theorem before_arg4 : ∀ op ∈ (List.flatten [hostOps0] : List (HloOp τ sig (Elt F))), Proc.devRef .tc main_arg4 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg4 : ∀ op ∈ (List.flatten [hostOps1] : List (HloOp τ sig (Elt F))), Proc.devRef .tc main_arg4 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 4 ends as launched. -/
theorem kept_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_of_kept m dats c main_arg4 after_arg4 (by decide)).trans (V_of_kept m c main_arg4 before_arg4)
theorem before_arg5 : ∀ op ∈ (List.flatten [hostOps0] : List (HloOp τ sig (Elt F))), Proc.devRef .tc main_arg5 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg5 : ∀ op ∈ (List.flatten [hostOps1] : List (HloOp τ sig (Elt F))), Proc.devRef .tc main_arg5 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 5 ends as launched. -/
theorem kept_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_of_kept m dats c main_arg5 after_arg5 (by decide)).trans (V_of_kept m c main_arg5 before_arg5)
theorem before_arg6 : ∀ op ∈ (List.flatten [hostOps0] : List (HloOp τ sig (Elt F))), Proc.devRef .tc main_arg6 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg6 : ∀ op ∈ (List.flatten [hostOps1] : List (HloOp τ sig (Elt F))), Proc.devRef .tc main_arg6 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 6 ends as launched. -/
theorem kept_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_of_kept m dats c main_arg6 after_arg6 (by decide)).trans (V_of_kept m c main_arg6 before_arg6)
theorem before_arg7 : ∀ op ∈ (List.flatten [hostOps0] : List (HloOp τ sig (Elt F))), Proc.devRef .tc main_arg7 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg7 : ∀ op ∈ (List.flatten [hostOps1] : List (HloOp τ sig (Elt F))), Proc.devRef .tc main_arg7 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 7 ends as launched. -/
theorem kept_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_of_kept m dats c main_arg7 after_arg7 (by decide)).trans (V_of_kept m c main_arg7 before_arg7)
theorem before_arg8 : ∀ op ∈ (List.flatten [hostOps0] : List (HloOp τ sig (Elt F))), Proc.devRef .tc main_arg8 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg8 : ∀ op ∈ (List.flatten [hostOps1] : List (HloOp τ sig (Elt F))), Proc.devRef .tc main_arg8 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 8 ends as launched. -/
theorem kept_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_of_kept m dats c main_arg8 after_arg8 (by decide)).trans (V_of_kept m c main_arg8 before_arg8)
theorem before_arg9 : ∀ op ∈ (List.flatten [hostOps0] : List (HloOp τ sig (Elt F))), Proc.devRef .tc main_arg9 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg9 : ∀ op ∈ (List.flatten [hostOps1] : List (HloOp τ sig (Elt F))), Proc.devRef .tc main_arg9 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 9 ends as launched. -/
theorem kept_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_of_kept m dats c main_arg9 after_arg9 (by decide)).trans (V_of_kept m c main_arg9 before_arg9)
theorem before_arg10 : ∀ op ∈ (List.flatten [hostOps0] : List (HloOp τ sig (Elt F))), Proc.devRef .tc main_arg10 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg10 : ∀ op ∈ (List.flatten [hostOps1] : List (HloOp τ sig (Elt F))), Proc.devRef .tc main_arg10 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 10 ends as launched. -/
theorem kept_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_of_kept m dats c main_arg10 after_arg10 (by decide)).trans (V_of_kept m c main_arg10 before_arg10)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (six of the seven inputs are fetched once, at the first point: their block index never moves), for any proof data
    whose arrays are the entry contents and whose body leaves the block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline library's -/

/-- From a run ending with every staged array at what the proof data computes and every other buffer as the last
    reshape leaves it: every argument array ends as launched. None of the eleven is a staged array (the region stages
    the packed and reshaped copies), so each is read off the second half of the post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (kept_arg0 m dats c),
    ((h c).2 main_arg1 (Pipeline.mem_restRefs_of main_arg1 (by decide) (by decide))).trans (kept_arg1 m dats c),
    ((h c).2 main_arg2 (Pipeline.mem_restRefs_of main_arg2 (by decide) (by decide))).trans (kept_arg2 m dats c),
    ((h c).2 main_arg3 (Pipeline.mem_restRefs_of main_arg3 (by decide) (by decide))).trans (kept_arg3 m dats c),
    ((h c).2 main_arg4 (Pipeline.mem_restRefs_of main_arg4 (by decide) (by decide))).trans (kept_arg4 m dats c),
    ((h c).2 main_arg5 (Pipeline.mem_restRefs_of main_arg5 (by decide) (by decide))).trans (kept_arg5 m dats c),
    ((h c).2 main_arg6 (Pipeline.mem_restRefs_of main_arg6 (by decide) (by decide))).trans (kept_arg6 m dats c),
    ((h c).2 main_arg7 (Pipeline.mem_restRefs_of main_arg7 (by decide) (by decide))).trans (kept_arg7 m dats c),
    ((h c).2 main_arg8 (Pipeline.mem_restRefs_of main_arg8 (by decide) (by decide))).trans (kept_arg8 m dats c),
    ((h c).2 main_arg9 (Pipeline.mem_restRefs_of main_arg9 (by decide) (by decide))).trans (kept_arg9 m dats c),
    ((h c).2 main_arg10 (Pipeline.mem_restRefs_of main_arg10 (by decide) (by decide))).trans (kept_arg10 m dats c)⟩) h

end Cert.Kernel.Around

end
-- ==== Proof.KernelBody.lean ====
/-
  The kernel body on its staging buffers.

  At a grid point the body loads its seven input blocks whole (2048 input rows, the packed first-layer weight row and
  bias, the packed second-layer weights and bias, the read-out weights and bias), computes the 2048 outputs and stores
  them over the whole output block. So after the body the output window's staging buffer holds one piece: the stored
  value, a pure function of the seven loaded blocks; the input buffers are as they were. (The body also loads the
  output buffer once before storing; nothing uses that value.)
-/
import proofs.«156167_j22368189678306_1_alg».proof.Proof.Gen.Kernel.Launch
import proofs.«156167_j22368189678306_1_alg».proof.Proof.Gen.Kernel.Skeleton
import proofs.«156167_j22368189678306_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The whole-block rectangles of the body's accesses -/

abbrev rX : Rect S2048x1 := Rect.unit (s := S2048x1) ![0, 0] S2048x1.size inb_S2048x1_S2048x1_0_0
abbrev rRow : Rect S1x153 := Rect.unit (s := S1x153) ![0, 0] S1x153.size inb_S1x153_S1x153_0_0
abbrev rW2 : Rect S51x153 := Rect.unit (s := S51x153) ![0, 0] S51x153.size inb_S51x153_S51x153_0_0
abbrev rWl : Rect S51x1 := Rect.unit (s := S51x1) ![0, 0] S51x1.size inb_S51x1_S51x1_0_0
abbrev rBl : Rect S1x1 := Rect.unit (s := S1x1) ![0, 0] S1x1.size inb_S1x1_S1x1_0_0

/-! ## What the body leaves in the output window's buffer -/

/-- The value the body stores, from the seven input buffers' contents. -/
def stored (x0 : Vec F S2048x1 .f32) (x1 x2 : Vec F S1x153 .f32) (x3 : Vec F S51x153 .f32) (x4 : Vec F S1x153 .f32)
    (x5 : Vec F S51x1 .f32) (x6 : Vec F S1x1 .f32) : FVec F S2048x1 .f32 :=
  k0_pay1 (k0_pay2 (View.ld x5 rWl)) (k0_pay3 (View.ld x6 rBl))
    (k0_pay4 (View.ld x0 rX) (View.ld x1 rRow) (View.ld x2 rRow) (View.ld x3 rW2) (View.ld x4 rRow))

/-- The output buffer after the body: its one store, over the whole block. -/
def outBuf (x0 : Vec F S2048x1 .f32) (x1 x2 : Vec F S1x153 .f32) (x3 : Vec F S51x153 .f32) (x4 : Vec F S1x153 .f32)
    (x5 : Vec F S51x1 .f32) (x6 : Vec F S1x1 .f32) : Vec F S2048x1 .f32 :=
  View.canon [⟨rX, stored x0 x1 x2 x3 x4 x5 x6⟩]

/-- The one store covers the buffer. -/
theorem cover_out (p0 : Vec F S2048x1 .f32) (y : S2048x1.Idx) :
    ∃ pc ∈ ([⟨rX, p0⟩] : List (View.Piece (Elt F) S2048x1 .f32)), y ∈ pc.1.set :=
  View.cover_of_tiled [⟨rX, p0⟩] S2048x1.size (by rfl) y

/-! ## The body's triple -/

set_option maxHeartbeats 4000000 in
/-- On whole staging memrefs, the inputs' at known contents and the output's at anything, the body runs to its
    continuation with the inputs' contents unchanged and the output's at `outBuf` of the inputs'. -/
theorem sound_kernel (c : Dev nD) (E : Set ℕ) (i : grid0.Coords)
    (arg1 : Memref sig .tc .vmem S2048x1 .f32) (harg1 : arg1.IsWhole)
    (arg2 : Memref sig .tc .vmem S1x153 .f32) (harg2 : arg2.IsWhole)
    (arg3 : Memref sig .tc .vmem S1x153 .f32) (harg3 : arg3.IsWhole)
    (arg4 : Memref sig .tc .vmem S51x153 .f32) (harg4 : arg4.IsWhole)
    (arg5 : Memref sig .tc .vmem S1x153 .f32) (harg5 : arg5.IsWhole)
    (arg6 : Memref sig .tc .vmem S51x1 .f32) (harg6 : arg6.IsWhole)
    (arg7 : Memref sig .tc .vmem S1x1 .f32) (harg7 : arg7.IsWhole)
    (arg8 : Memref sig .tc .vmem S2048x1 .f32) (harg8 : arg8.IsWhole)
    (x0 : Vec F S2048x1 .f32) (x1 : Vec F S1x153 .f32) (x2 : Vec F S1x153 .f32) (x3 : Vec F S51x153 .f32) (x4 : Vec F S1x153 .f32) (x5 : Vec F S51x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outBuf x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.Kernel.Body

end
-- ==== Proof.KernelFrame.lean ====
/-
  The frame of the whole program: it runs to the end, faults nowhere, and leaves its argument arrays as launched.

  The proof data of the one pipeline: the eight arrays as the region finds them; after the body at a grid point each
  of the seven input windows' staging buffers still holds its block, and the output window's holds what the body stored
  there, a function of the seven input blocks at that point; the invariant is the untouched rest; full shares; nothing
  owed. With it the pipeline library's launch theorem runs the region at all 200 points around the host operations.
-/
import proofs.«156167_j22368189678306_1_alg».proof.Proof.KernelAround
import proofs.«156167_j22368189678306_1_alg».proof.Proof.KernelBody

set_option maxRecDepth 16384

noncomputable section

namespace Cert.Kernel.Frame

open Cert.Kernel Cert.Kernel.Gen Cert.Kernel.Around Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output window's buffer holds after the body at point `t`: the body's result on the seven input blocks there. -/
def outAt (c : Dev nD) (t : Fin cfg0.N) : Vec F S2048x1 .f32 :=
  outBuf (iblk m c 0 t) (iblk m c 1 t) (iblk m c 2 t) (iblk m c 3 t) (iblk m c 4 t) (iblk m c 5 t) (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and ends with every
    staged array at what the proof data computes and every other buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Frame

end
-- ==== Proof.KernelIdealAround.lean ====
/-
  The program around its kernel region.

  @main is 29 host operations (slices, concatenations, transposes, two additions and reshapes that pack the weights the
  kernel needs and flatten the input to 409600 rows), the one kernel region, and one host operation after it (the
  reshape of the region's 409600 × 1 result back to 200 × 2048 × 1). The host operations before the region write
  only their own result buffers, so every argument array reaches the region as launched; the one after it writes
  only the program's result, so every argument array also ends as launched. This module fixes the buffer contents
  at the region's entry, reduces @main to "the region, continued by the last reshape", and turns a run that ends in
  the pipeline library's post (each staged array at what the proof data computes, every other buffer as the tail
  leaves it) into the frame claim's post.
-/
import proofs.«156167_j22368189678306_1_alg».proof.Proof.Gen.KernelIdeal.Launch
import proofs.«156167_j22368189678306_1_alg».proof.Proof.Gen.KernelIdeal.Skeleton
import proofs.«156167_j22368189678306_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry -/

/-- Core `c`'s buffer contents when the region is entered: the launch memory after the 29 host operations. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it; run from the launch memory it
    reaches the region at `V`, with the last reshape as what remains. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The reshape after the region -/

/-- It touches only buffers a line after the region may touch. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes the program's result buffer, which is none of the eight staged arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The argument arrays are written by no host operation -/

/-- A buffer none of the 29 host operations writes reaches the region as launched. -/
theorem V_of_kept (c : Dev nD) (b : Ref sig .tc)
    (hb : ∀ op ∈ (List.flatten [hostOps0] : List (HloOp τ sig (Elt F))), Proc.devRef .tc b ∉ op.writes) :
    V m c b = m ((c : Thread nD τ).loc b) :=
  StableHlo.after_of_forall_not_mem (b := Proc.devRef .tc b) _ _ hb

/-- A buffer that is no staged array and that the last reshape does not write ends as it reached the region. -/
theorem tail_of_kept (dats : (p : Fin 1) → (c : Dev nD) → Dat τ (Elt F) Unit ℕ (UR sig nD τ) ℕ (cfgs p) c) (c : Dev nD)
    (b : Ref sig .tc) (hb : ∀ op ∈ (List.flatten [hostOps1] : List (HloOp τ sig (Elt F))), Proc.devRef .tc b ∉ op.writes)
    (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hb,
    Pipeline.withArrays_of_ne _ c (V0 m c) _ b hw]

theorem before_arg0 : ∀ op ∈ (List.flatten [hostOps0] : List (HloOp τ sig (Elt F))), Proc.devRef .tc main_arg0 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg0 : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 0 ends as launched. -/
theorem kept_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_of_kept m dats c main_arg0 after_arg0 (by decide)).trans (V_of_kept m c main_arg0 before_arg0)
theorem before_arg1 : ∀ op ∈ (List.flatten [hostOps0] : List (HloOp τ sig (Elt F))), Proc.devRef .tc main_arg1 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg1 : ∀ op ∈ (List.flatten [hostOps1] : List (HloOp τ sig (Elt F))), Proc.devRef .tc main_arg1 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 1 ends as launched. -/
theorem kept_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_of_kept m dats c main_arg1 after_arg1 (by decide)).trans (V_of_kept m c main_arg1 before_arg1)
theorem before_arg2 : ∀ op ∈ (List.flatten [hostOps0] : List (HloOp τ sig (Elt F))), Proc.devRef .tc main_arg2 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg2 : ∀ op ∈ (List.flatten [hostOps1] : List (HloOp τ sig (Elt F))), Proc.devRef .tc main_arg2 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 2 ends as launched. -/
theorem kept_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_of_kept m dats c main_arg2 after_arg2 (by decide)).trans (V_of_kept m c main_arg2 before_arg2)
theorem before_arg3 : ∀ op ∈ (List.flatten [hostOps0] : List (HloOp τ sig (Elt F))), Proc.devRef .tc main_arg3 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg3 : ∀ op ∈ (List.flatten [hostOps1] : List (HloOp τ sig (Elt F))), Proc.devRef .tc main_arg3 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 3 ends as launched. -/
theorem kept_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_of_kept m dats c main_arg3 after_arg3 (by decide)).trans (V_of_kept m c main_arg3 before_arg3)
theorem before_arg4 : ∀ op ∈ (List.flatten [hostOps0] : List (HloOp τ sig (Elt F))), Proc.devRef .tc main_arg4 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg4 : ∀ op ∈ (List.flatten [hostOps1] : List (HloOp τ sig (Elt F))), Proc.devRef .tc main_arg4 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 4 ends as launched. -/
theorem kept_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_of_kept m dats c main_arg4 after_arg4 (by decide)).trans (V_of_kept m c main_arg4 before_arg4)
theorem before_arg5 : ∀ op ∈ (List.flatten [hostOps0] : List (HloOp τ sig (Elt F))), Proc.devRef .tc main_arg5 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg5 : ∀ op ∈ (List.flatten [hostOps1] : List (HloOp τ sig (Elt F))), Proc.devRef .tc main_arg5 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 5 ends as launched. -/
theorem kept_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_of_kept m dats c main_arg5 after_arg5 (by decide)).trans (V_of_kept m c main_arg5 before_arg5)
theorem before_arg6 : ∀ op ∈ (List.flatten [hostOps0] : List (HloOp τ sig (Elt F))), Proc.devRef .tc main_arg6 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg6 : ∀ op ∈ (List.flatten [hostOps1] : List (HloOp τ sig (Elt F))), Proc.devRef .tc main_arg6 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 6 ends as launched. -/
theorem kept_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_of_kept m dats c main_arg6 after_arg6 (by decide)).trans (V_of_kept m c main_arg6 before_arg6)
theorem before_arg7 : ∀ op ∈ (List.flatten [hostOps0] : List (HloOp τ sig (Elt F))), Proc.devRef .tc main_arg7 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg7 : ∀ op ∈ (List.flatten [hostOps1] : List (HloOp τ sig (Elt F))), Proc.devRef .tc main_arg7 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 7 ends as launched. -/
theorem kept_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_of_kept m dats c main_arg7 after_arg7 (by decide)).trans (V_of_kept m c main_arg7 before_arg7)
theorem before_arg8 : ∀ op ∈ (List.flatten [hostOps0] : List (HloOp τ sig (Elt F))), Proc.devRef .tc main_arg8 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg8 : ∀ op ∈ (List.flatten [hostOps1] : List (HloOp τ sig (Elt F))), Proc.devRef .tc main_arg8 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 8 ends as launched. -/
theorem kept_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_of_kept m dats c main_arg8 after_arg8 (by decide)).trans (V_of_kept m c main_arg8 before_arg8)
theorem before_arg9 : ∀ op ∈ (List.flatten [hostOps0] : List (HloOp τ sig (Elt F))), Proc.devRef .tc main_arg9 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg9 : ∀ op ∈ (List.flatten [hostOps1] : List (HloOp τ sig (Elt F))), Proc.devRef .tc main_arg9 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 9 ends as launched. -/
theorem kept_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_of_kept m dats c main_arg9 after_arg9 (by decide)).trans (V_of_kept m c main_arg9 before_arg9)
theorem before_arg10 : ∀ op ∈ (List.flatten [hostOps0] : List (HloOp τ sig (Elt F))), Proc.devRef .tc main_arg10 ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, StableHlo.nary_writes, Finset.mem_singleton]
    repeat' apply And.intro
    all_goals exact StableHlo.devRef_ne_of_ne (by decide))
theorem after_arg10 : ∀ op ∈ (List.flatten [hostOps1] : List (HloOp τ sig (Elt F))), Proc.devRef .tc main_arg10 ∉ op.writes :=
  List.forall_iff_forall_mem.mp (by
    simp only [hostOps1, List.flatten_cons, List.flatten_nil, List.append_nil, List.cons_append, List.nil_append, List.Forall,
      StableHlo.nullary_writes, StableHlo.unary_writes, StableHlo.binary_writes, StableHlo.reshape_writes, StableHlo.nary_writes, Finset.mem_singleton]
    exact StableHlo.devRef_ne_of_ne (by decide))
/-- Argument 10 ends as launched. -/
theorem kept_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_of_kept m dats c main_arg10 after_arg10 (by decide)).trans (V_of_kept m c main_arg10 before_arg10)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (six of the seven inputs are fetched once, at the first point: their block index never moves), for any proof data
    whose arrays are the entry contents and whose body leaves the block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline library's -/

/-- From a run ending with every staged array at what the proof data computes and every other buffer as the last
    reshape leaves it: every argument array ends as launched. None of the eleven is a staged array (the region stages
    the packed and reshaped copies), so each is read off the second half of the post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (kept_arg0 m dats c),
    ((h c).2 main_arg1 (Pipeline.mem_restRefs_of main_arg1 (by decide) (by decide))).trans (kept_arg1 m dats c),
    ((h c).2 main_arg2 (Pipeline.mem_restRefs_of main_arg2 (by decide) (by decide))).trans (kept_arg2 m dats c),
    ((h c).2 main_arg3 (Pipeline.mem_restRefs_of main_arg3 (by decide) (by decide))).trans (kept_arg3 m dats c),
    ((h c).2 main_arg4 (Pipeline.mem_restRefs_of main_arg4 (by decide) (by decide))).trans (kept_arg4 m dats c),
    ((h c).2 main_arg5 (Pipeline.mem_restRefs_of main_arg5 (by decide) (by decide))).trans (kept_arg5 m dats c),
    ((h c).2 main_arg6 (Pipeline.mem_restRefs_of main_arg6 (by decide) (by decide))).trans (kept_arg6 m dats c),
    ((h c).2 main_arg7 (Pipeline.mem_restRefs_of main_arg7 (by decide) (by decide))).trans (kept_arg7 m dats c),
    ((h c).2 main_arg8 (Pipeline.mem_restRefs_of main_arg8 (by decide) (by decide))).trans (kept_arg8 m dats c),
    ((h c).2 main_arg9 (Pipeline.mem_restRefs_of main_arg9 (by decide) (by decide))).trans (kept_arg9 m dats c),
    ((h c).2 main_arg10 (Pipeline.mem_restRefs_of main_arg10 (by decide) (by decide))).trans (kept_arg10 m dats c)⟩) h

end Cert.KernelIdeal.Around

end
-- ==== Proof.KernelIdealBody.lean ====
/-
  The kernel body on its staging buffers.

  At a grid point the body loads its seven input blocks whole (2048 input rows, the packed first-layer weight row and
  bias, the packed second-layer weights and bias, the read-out weights and bias), computes the 2048 outputs and stores
  them over the whole output block. So after the body the output window's staging buffer holds one piece: the stored
  value, a pure function of the seven loaded blocks; the input buffers are as they were. (The body also loads the
  output buffer once before storing; nothing uses that value.)
-/
import proofs.«156167_j22368189678306_1_alg».proof.Proof.Gen.KernelIdeal.Launch
import proofs.«156167_j22368189678306_1_alg».proof.Proof.Gen.KernelIdeal.Skeleton
import proofs.«156167_j22368189678306_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The whole-block rectangles of the body's accesses -/

abbrev rX : Rect S2048x1 := Rect.unit (s := S2048x1) ![0, 0] S2048x1.size inb_S2048x1_S2048x1_0_0
abbrev rRow : Rect S1x153 := Rect.unit (s := S1x153) ![0, 0] S1x153.size inb_S1x153_S1x153_0_0
abbrev rW2 : Rect S51x153 := Rect.unit (s := S51x153) ![0, 0] S51x153.size inb_S51x153_S51x153_0_0
abbrev rWl : Rect S51x1 := Rect.unit (s := S51x1) ![0, 0] S51x1.size inb_S51x1_S51x1_0_0
abbrev rBl : Rect S1x1 := Rect.unit (s := S1x1) ![0, 0] S1x1.size inb_S1x1_S1x1_0_0

/-! ## What the body leaves in the output window's buffer -/

/-- The value the body stores, from the seven input buffers' contents. -/
def stored (x0 : Vec F S2048x1 .f32) (x1 x2 : Vec F S1x153 .f32) (x3 : Vec F S51x153 .f32) (x4 : Vec F S1x153 .f32)
    (x5 : Vec F S51x1 .f32) (x6 : Vec F S1x1 .f32) : FVec F S2048x1 .f32 :=
  k0_pay1 (k0_pay2 (View.ld x5 rWl)) (k0_pay3 (View.ld x6 rBl))
    (k0_pay4 (View.ld x0 rX) (View.ld x1 rRow) (View.ld x2 rRow) (View.ld x3 rW2) (View.ld x4 rRow))

/-- The output buffer after the body: its one store, over the whole block. -/
def outBuf (x0 : Vec F S2048x1 .f32) (x1 x2 : Vec F S1x153 .f32) (x3 : Vec F S51x153 .f32) (x4 : Vec F S1x153 .f32)
    (x5 : Vec F S51x1 .f32) (x6 : Vec F S1x1 .f32) : Vec F S2048x1 .f32 :=
  View.canon [⟨rX, stored x0 x1 x2 x3 x4 x5 x6⟩]

/-- The one store covers the buffer. -/
theorem cover_out (p0 : Vec F S2048x1 .f32) (y : S2048x1.Idx) :
    ∃ pc ∈ ([⟨rX, p0⟩] : List (View.Piece (Elt F) S2048x1 .f32)), y ∈ pc.1.set :=
  View.cover_of_tiled [⟨rX, p0⟩] S2048x1.size (by rfl) y

/-! ## The body's triple -/

set_option maxHeartbeats 4000000 in
/-- On whole staging memrefs, the inputs' at known contents and the output's at anything, the body runs to its
    continuation with the inputs' contents unchanged and the output's at `outBuf` of the inputs'. -/
theorem sound_kernel (c : Dev nD) (E : Set ℕ) (i : grid0.Coords)
    (arg1 : Memref sig .tc .vmem S2048x1 .f32) (harg1 : arg1.IsWhole)
    (arg2 : Memref sig .tc .vmem S1x153 .f32) (harg2 : arg2.IsWhole)
    (arg3 : Memref sig .tc .vmem S1x153 .f32) (harg3 : arg3.IsWhole)
    (arg4 : Memref sig .tc .vmem S51x153 .f32) (harg4 : arg4.IsWhole)
    (arg5 : Memref sig .tc .vmem S1x153 .f32) (harg5 : arg5.IsWhole)
    (arg6 : Memref sig .tc .vmem S51x1 .f32) (harg6 : arg6.IsWhole)
    (arg7 : Memref sig .tc .vmem S1x1 .f32) (harg7 : arg7.IsWhole)
    (arg8 : Memref sig .tc .vmem S2048x1 .f32) (harg8 : arg8.IsWhole)
    (x0 : Vec F S2048x1 .f32) (x1 : Vec F S1x153 .f32) (x2 : Vec F S1x153 .f32) (x3 : Vec F S51x153 .f32) (x4 : Vec F S1x153 .f32) (x5 : Vec F S51x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outBuf x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.KernelIdeal.Body

end
-- ==== Proof.KernelIdealFrame.lean ====
/-
  The frame of the whole program: it runs to the end, faults nowhere, and leaves its argument arrays as launched.

  The proof data of the one pipeline: the eight arrays as the region finds them; after the body at a grid point each
  of the seven input windows' staging buffers still holds its block, and the output window's holds what the body stored
  there, a function of the seven input blocks at that point; the invariant is the untouched rest; full shares; nothing
  owed. With it the pipeline library's launch theorem runs the region at all 200 points around the host operations.
-/
import proofs.«156167_j22368189678306_1_alg».proof.Proof.KernelIdealAround
import proofs.«156167_j22368189678306_1_alg».proof.Proof.KernelIdealBody

set_option maxRecDepth 16384

noncomputable section

namespace Cert.KernelIdeal.Frame

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output window's buffer holds after the body at point `t`: the body's result on the seven input blocks there. -/
def outAt (c : Dev nD) (t : Fin cfg0.N) : Vec F S2048x1 .f32 :=
  outBuf (iblk m c 0 t) (iblk m c 1 t) (iblk m c 2 t) (iblk m c 3 t) (iblk m c 4 t) (iblk m c 5 t) (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and ends with every
    staged array at what the proof data computes and every other buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Frame

end
-- ==== Proof.Spec.lean ====
/-
  What both programs compute, as one function of the eleven argument arrays, entry by entry, on the extended reals.

  The network is two LSTM cells applied to a zero state, followed by a linear read-out, applied independently to each
  of the 200 × 2048 scalar inputs. With the previous hidden and cell states zero, the recurrent weights and the forget
  gate drop out of a cell: from the stacked pre-activations `z = W · v + (b + b')` (204 rows: input gate 0–50, forget
  gate 51–101, cell candidate 102–152, output gate 153–203) its output is
  `h k = σ (z (153 + k)) · tanh (σ (z k) · tanh (z (102 + k)))`, with `σ` the logistic function.
  The first cell's input is the scalar `x` (a product, no sum); the second cell's is the first cell's 51 outputs;
  the result is `Σ k, h₂ k · w k + b`.
-/
import Idealize.ShloMosaic.PureOps.Ideal
import Idealize.ShloMosaic.Lib.ValueIdx

noncomputable section

namespace Cert.LstmSpec

open Idealize.ShloMosaic Idealize.ShloMosaic.ValueIdx

/-- Row of the input gate's `k`-th unit among the 204 stacked rows. -/
def rowI (k : Fin 51) : Fin 204 := ⟨k.val, by omega⟩
/-- Row of the cell candidate's `k`-th unit. -/
def rowG (k : Fin 51) : Fin 204 := ⟨102 + k.val, by omega⟩
/-- Row of the output gate's `k`-th unit. -/
def rowO (k : Fin 51) : Fin 204 := ⟨153 + k.val, by omega⟩

/-- The kernel keeps only the three gates it needs, packed as 153 rows (input gate, cell candidate, output gate): packed
    row `j` is stacked row `j` below 51 and `j + 51` from there on (the forget gate's 51 rows are skipped). -/
def pick (j : Fin 153) : Fin 204 := ⟨if j.val < 51 then j.val else j.val + 51, by have := j.isLt; split <;> omega⟩

theorem pick_lo (k : Fin 51) : pick ⟨k.val, by have := k.isLt; omega⟩ = rowI k := by
  have := k.isLt; apply Fin.ext; simp only [pick, rowI]; split <;> omega
theorem pick_mid (k : Fin 51) : pick ⟨51 + k.val, by have := k.isLt; omega⟩ = rowG k := by
  have := k.isLt; apply Fin.ext; simp only [pick, rowG]; split <;> omega
theorem pick_hi (k : Fin 51) : pick ⟨102 + k.val, by have := k.isLt; omega⟩ = rowO k := by
  have := k.isLt; apply Fin.ext; simp only [pick, rowO]; split <;> omega

/-- A zero-state cell's output from its input-gate, candidate and output-gate pre-activations. -/
def cellOut (i g o : EReal) : EReal := Ideal.logistic o * Ideal.tanh (Ideal.logistic i * Ideal.tanh g)

variable (w1 : FVec Ideal ⟨2, ![204, 1]⟩ .f32) (ba1 bb1 : FVec Ideal ⟨1, ![204]⟩ .f32)
  (w2 : FVec Ideal ⟨2, ![204, 51]⟩ .f32) (ba2 bb2 : FVec Ideal ⟨1, ![204]⟩ .f32)
  (wl : FVec Ideal ⟨2, ![1, 51]⟩ .f32) (bl : FVec Ideal ⟨1, ![1]⟩ .f32)

/-- First cell, row `j` of the stacked pre-activations at the scalar input `x`. -/
def pre1 (x : EReal) (j : Fin 204) : EReal := x * w1 (ix2 j 0) + (ba1 (ix1 j) + bb1 (ix1 j))

/-- First cell, output of unit `k`. -/
def hid1 (x : EReal) (k : Fin 51) : EReal :=
  cellOut (pre1 w1 ba1 bb1 x (rowI k)) (pre1 w1 ba1 bb1 x (rowG k)) (pre1 w1 ba1 bb1 x (rowO k))

/-- Second cell, row `j` of the stacked pre-activations. -/
def pre2 (x : EReal) (j : Fin 204) : EReal :=
  (∑ k : Fin 51, hid1 w1 ba1 bb1 x k * w2 (ix2 j k)) + (ba2 (ix1 j) + bb2 (ix1 j))

/-- Second cell, output of unit `k`. -/
def hid2 (x : EReal) (k : Fin 51) : EReal :=
  cellOut (pre2 w1 ba1 bb1 w2 ba2 bb2 x (rowI k)) (pre2 w1 ba1 bb1 w2 ba2 bb2 x (rowG k))
    (pre2 w1 ba1 bb1 w2 ba2 bb2 x (rowO k))

/-- The read-out at the scalar input `x`. -/
def out (x : EReal) : EReal :=
  (∑ k : Fin 51, hid2 w1 ba1 bb1 w2 ba2 bb2 x k * wl (ix2 0 k)) + bl (ix1 0)

/-- The whole result: the read-out applied to every entry of the input array. -/
def G (X : FVec Ideal ⟨3, ![200, 2048, 1]⟩ .f32) : FVec Ideal ⟨3, ![200, 2048, 1]⟩ .f32 :=
  fun i => out w1 ba1 bb1 w2 ba2 bb2 wl bl (X i)

end Cert.LstmSpec

end
-- ==== Proof.EntryVals.lean ====
/-
  What the staged arrays hold when the kernel region is entered, entry by entry, in terms of the argument arrays.
-/
import proofs.«156167_j22368189678306_1_alg».proof.Proof.Gen.KernelIdeal.Launch
import proofs.«156167_j22368189678306_1_alg».proof.Proof.Spec
import Idealize.ShloMosaic.Lib.Pipeline.Value
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Cert.LstmSpec

variable (m : (ℓ : Loc nD τ sig) → Buf (Elt Ideal) ℓ) (c : Dev nD)

/-- Core `c`'s contents of buffer `b` when the region is entered: after the host operations before it. -/
abbrev atEntry (b : Ref sig .tc) : Buf (Elt Ideal) ((c : Thread nD τ).loc b) :=
  StableHlo.after (List.flatten [hostOps0 (F := Ideal)]) (fun b => m (c, b)) (Proc.devRef .tc b)

/-- The argument arrays as launched, each at its literal type. -/
abbrev argX : FVec Ideal S200x2048x1 .f32 := m ((c : Thread nD τ).loc main_arg0)
abbrev argW1 : FVec Ideal S204x1 .f32 := m ((c : Thread nD τ).loc main_arg1)
abbrev argBa1 : FVec Ideal S204 .f32 := m ((c : Thread nD τ).loc main_arg3)
abbrev argBb1 : FVec Ideal S204 .f32 := m ((c : Thread nD τ).loc main_arg4)
abbrev argW2 : FVec Ideal S204x51 .f32 := m ((c : Thread nD τ).loc main_arg5)
abbrev argBa2 : FVec Ideal S204 .f32 := m ((c : Thread nD τ).loc main_arg7)
abbrev argBb2 : FVec Ideal S204 .f32 := m ((c : Thread nD τ).loc main_arg8)
abbrev argWl : FVec Ideal S1x51 .f32 := m ((c : Thread nD τ).loc main_arg9)
abbrev argBl : FVec Ideal S1 .f32 := m ((c : Thread nD τ).loc main_arg10)

/-- The seven staged arrays as the region finds them, each at its literal type. -/
abbrev entX : FVec Ideal S409600x1 .f32 := atEntry m c main_v28
abbrev entW1 : FVec Ideal S1x153 .f32 := atEntry m c main_v5
abbrev entB1 : FVec Ideal S1x153 .f32 := atEntry m c main_v12
abbrev entW2 : FVec Ideal S51x153 .f32 := atEntry m c main_v18
abbrev entB2 : FVec Ideal S1x153 .f32 := atEntry m c main_v25
abbrev entWl : FVec Ideal S51x1 .f32 := atEntry m c main_v26
abbrev entBl : FVec Ideal S1x1 .f32 := atEntry m c main_v27

/-- The staged input is the argument reshaped to 409600 rows. -/
private theorem eX : (entX m c : S409600x1.Idx → EReal) = shapeCast S409600x1 (argX m c) shapeCasts_S200x2048x1_S409600x1 := by
  show StableHlo.after hostOps0 (fun b => m (c, b)) (Proc.devRef .tc main_v28) = _
  after_results <;> rfl

/-- The staged read-out bias is the argument reshaped to 1 × 1. -/
private theorem eBl : (entBl m c : S1x1.Idx → EReal) = shapeCast S1x1 (argBl m c) shapeCasts_S1_S1x1 := by
  show StableHlo.after hostOps0 (fun b => m (c, b)) (Proc.devRef .tc main_v27) = _
  after_results <;> rfl

/-- The staged read-out weights are the argument transposed. -/
private theorem eWl : (entWl m c : S51x1.Idx → EReal) = transpose S51x1 [1, 0] (argWl m c) transposes_S1x51_S51x1_1_0 := by
  show StableHlo.after hostOps0 (fun b => m (c, b)) (Proc.devRef .tc main_v26) = _
  after_results <;> rfl

/-- The first cell's staged weights: the three kept row-blocks of the argument laid end to end, reshaped to one row. -/
private theorem eW1 : (entW1 m c : S1x153.Idx → EReal) = shapeCast S1x153 (concatenate S153x1 0 [⟨S51x1, extractStridedSlice S51x1 ![0, 0] (argW1 m c) slices_S204x1_S51x1_0_0⟩, ⟨S51x1, extractStridedSlice S51x1 ![102, 0] (argW1 m c) slices_S204x1_S51x1_102_0⟩, ⟨S51x1, extractStridedSlice S51x1 ![153, 0] (argW1 m c) slices_S204x1_S51x1_153_0⟩] concatenates_S51x1_S51x1_S51x1_S153x1_d0) shapeCasts_S153x1_S1x153 := by
  show StableHlo.after hostOps0 (fun b => m (c, b)) (Proc.devRef .tc main_v5) = _
  after_results <;> rfl

/-- The first cell's staged bias: the three kept blocks of the sum of the two bias arguments laid end to end, reshaped to one row. -/
private theorem eB1 : (entB1 m c : S1x153.Idx → EReal) = shapeCast S1x153 (concatenate S153 0 [⟨S51, extractStridedSlice S51 ![0] (addf (argBa1 m c) (argBb1 m c)) slices_S204_S51_0⟩, ⟨S51, extractStridedSlice S51 ![102] (addf (argBa1 m c) (argBb1 m c)) slices_S204_S51_102⟩, ⟨S51, extractStridedSlice S51 ![153] (addf (argBa1 m c) (argBb1 m c)) slices_S204_S51_153⟩] concatenates_S51_S51_S51_S153_d0) shapeCasts_S153_S1x153 := by
  show StableHlo.after hostOps0 (fun b => m (c, b)) (Proc.devRef .tc main_v12) = _
  after_results <;> rfl

/-- The second cell's staged weights: the three kept row-blocks of the argument laid end to end, transposed. -/
private theorem eW2 : (entW2 m c : S51x153.Idx → EReal) = transpose S51x153 [1, 0] (concatenate S153x51 0 [⟨S51x51, extractStridedSlice S51x51 ![0, 0] (argW2 m c) slices_S204x51_S51x51_0_0⟩, ⟨S51x51, extractStridedSlice S51x51 ![102, 0] (argW2 m c) slices_S204x51_S51x51_102_0⟩, ⟨S51x51, extractStridedSlice S51x51 ![153, 0] (argW2 m c) slices_S204x51_S51x51_153_0⟩] concatenates_S51x51_S51x51_S51x51_S153x51_d0) transposes_S153x51_S51x153_1_0 := by
  show StableHlo.after hostOps0 (fun b => m (c, b)) (Proc.devRef .tc main_v18) = _
  after_results <;> rfl

/-- The second cell's staged bias: the three kept blocks of the sum of the two bias arguments laid end to end, reshaped to one row. -/
private theorem eB2 : (entB2 m c : S1x153.Idx → EReal) = shapeCast S1x153 (concatenate S153 0 [⟨S51, extractStridedSlice S51 ![0] (addf (argBa2 m c) (argBb2 m c)) slices_S204_S51_0⟩, ⟨S51, extractStridedSlice S51 ![102] (addf (argBa2 m c) (argBb2 m c)) slices_S204_S51_102⟩, ⟨S51, extractStridedSlice S51 ![153] (addf (argBa2 m c) (argBb2 m c)) slices_S204_S51_153⟩] concatenates_S51_S51_S51_S153_d0) shapeCasts_S153_S1x153 := by
  show StableHlo.after hostOps0 (fun b => m (c, b)) (Proc.devRef .tc main_v25) = _
  after_results <;> rfl

/-- The three kept row-blocks of a 204 × 1 array laid end to end: packed row `j` is row `pick j`. -/
private theorem packed_col (x : S204x1.Idx → EReal) (j : Fin 153) :
    concatenate S153x1 0 [⟨S51x1, extractStridedSlice S51x1 ![0, 0] x slices_S204x1_S51x1_0_0⟩,
      ⟨S51x1, extractStridedSlice S51x1 ![102, 0] x slices_S204x1_S51x1_102_0⟩,
      ⟨S51x1, extractStridedSlice S51x1 ![153, 0] x slices_S204x1_S51x1_153_0⟩]
      concatenates_S51x1_S51x1_S51x1_S153x1_d0 (ix2 j (0 : Fin 1)) = x (ix2 (pick j) (0 : Fin 1)) := by
  have hj := j.isLt
  by_cases h1 : j.val < 51
  · refine (concatenate_apply_piece (t := S153x1) (0 : Fin 2) _ _ (ix2 j (0 : Fin 1)) 0 ?_ S51x1 (extractStridedSlice S51x1 ![0, 0] x slices_S204x1_S51x1_0_0) ?_ ?_ 0 ?_
      (ix2 ⟨j.val, h1⟩ (0 : Fin 1)) ?_ ?_).trans ?_
    · simp only [List.length_cons, List.length_nil]; omega
    · rfl
    · rfl
    · rfl
    · intro b hb
      match b with
      | ⟨0, _⟩ => exact absurd rfl hb
      | ⟨1, _⟩ => rfl
    · show 0 + (j.val) = j.val
      omega
    · refine extractStridedSlice_apply _ _ _ _ _ ?_
      intro a
      match a with
      | ⟨0, _⟩ =>
        show (pick j).val = 0 + (j.val)
        simp only [pick]; split <;> omega
      | ⟨1, _⟩ => rfl
  · by_cases h2 : j.val < 102
    · refine (concatenate_apply_piece (t := S153x1) (0 : Fin 2) _ _ (ix2 j (0 : Fin 1)) 1 ?_ S51x1 (extractStridedSlice S51x1 ![102, 0] x slices_S204x1_S51x1_102_0) ?_ ?_ 51 ?_
        (ix2 ⟨j.val - 51, by omega⟩ (0 : Fin 1)) ?_ ?_).trans ?_
      · simp only [List.length_cons, List.length_nil]; omega
      · rfl
      · rfl
      · rfl
      · intro b hb
        match b with
        | ⟨0, _⟩ => exact absurd rfl hb
        | ⟨1, _⟩ => rfl
      · show 51 + (j.val - 51) = j.val
        omega
      · refine extractStridedSlice_apply _ _ _ _ _ ?_
        intro a
        match a with
        | ⟨0, _⟩ =>
          show (pick j).val = 102 + (j.val - 51)
          simp only [pick]; split <;> omega
        | ⟨1, _⟩ => rfl
    · refine (concatenate_apply_piece (t := S153x1) (0 : Fin 2) _ _ (ix2 j (0 : Fin 1)) 2 ?_ S51x1 (extractStridedSlice S51x1 ![153, 0] x slices_S204x1_S51x1_153_0) ?_ ?_ 102 ?_
        (ix2 ⟨j.val - 102, by omega⟩ (0 : Fin 1)) ?_ ?_).trans ?_
      · simp only [List.length_cons, List.length_nil]; omega
      · rfl
      · rfl
      · rfl
      · intro b hb
        match b with
        | ⟨0, _⟩ => exact absurd rfl hb
        | ⟨1, _⟩ => rfl
      · show 102 + (j.val - 102) = j.val
        omega
      · refine extractStridedSlice_apply _ _ _ _ _ ?_
        intro a
        match a with
        | ⟨0, _⟩ =>
          show (pick j).val = 153 + (j.val - 102)
          simp only [pick]; split <;> omega
        | ⟨1, _⟩ => rfl

/-- The three kept blocks of a 204-vector laid end to end: packed entry `j` is entry `pick j`. -/
private theorem packed_vec (x : S204.Idx → EReal) (j : Fin 153) :
    concatenate S153 0 [⟨S51, extractStridedSlice S51 ![0] x slices_S204_S51_0⟩,
      ⟨S51, extractStridedSlice S51 ![102] x slices_S204_S51_102⟩,
      ⟨S51, extractStridedSlice S51 ![153] x slices_S204_S51_153⟩]
      concatenates_S51_S51_S51_S153_d0 (ix1 j) = x (ix1 (pick j)) := by
  have hj := j.isLt
  by_cases h1 : j.val < 51
  · refine (concatenate_apply_piece (t := S153) (0 : Fin 1) _ _ (ix1 j) 0 ?_ S51 (extractStridedSlice S51 ![0] x slices_S204_S51_0) ?_ ?_ 0 ?_
      (ix1 ⟨j.val, h1⟩) ?_ ?_).trans ?_
    · simp only [List.length_cons, List.length_nil]; omega
    · rfl
    · rfl
    · rfl
    · intro b hb
      match b with
      | ⟨0, _⟩ => exact absurd rfl hb
    · show 0 + (j.val) = j.val
      omega
    · refine extractStridedSlice_apply _ _ _ _ _ ?_
      intro a
      match a with
      | ⟨0, _⟩ =>
        show (pick j).val = 0 + (j.val)
        simp only [pick]; split <;> omega
  · by_cases h2 : j.val < 102
    · refine (concatenate_apply_piece (t := S153) (0 : Fin 1) _ _ (ix1 j) 1 ?_ S51 (extractStridedSlice S51 ![102] x slices_S204_S51_102) ?_ ?_ 51 ?_
        (ix1 ⟨j.val - 51, by omega⟩) ?_ ?_).trans ?_
      · simp only [List.length_cons, List.length_nil]; omega
      · rfl
      · rfl
      · rfl
      · intro b hb
        match b with
        | ⟨0, _⟩ => exact absurd rfl hb
      · show 51 + (j.val - 51) = j.val
        omega
      · refine extractStridedSlice_apply _ _ _ _ _ ?_
        intro a
        match a with
        | ⟨0, _⟩ =>
          show (pick j).val = 102 + (j.val - 51)
          simp only [pick]; split <;> omega
    · refine (concatenate_apply_piece (t := S153) (0 : Fin 1) _ _ (ix1 j) 2 ?_ S51 (extractStridedSlice S51 ![153] x slices_S204_S51_153) ?_ ?_ 102 ?_
        (ix1 ⟨j.val - 102, by omega⟩) ?_ ?_).trans ?_
      · simp only [List.length_cons, List.length_nil]; omega
      · rfl
      · rfl
      · rfl
      · intro b hb
        match b with
        | ⟨0, _⟩ => exact absurd rfl hb
      · show 102 + (j.val - 102) = j.val
        omega
      · refine extractStridedSlice_apply _ _ _ _ _ ?_
        intro a
        match a with
        | ⟨0, _⟩ =>
          show (pick j).val = 153 + (j.val - 102)
          simp only [pick]; split <;> omega

/-- The three kept row-blocks of a 204 × 51 array laid end to end: packed row `j` is row `pick j`, column by column. -/
private theorem packed_mat (x : S204x51.Idx → EReal) (j : Fin 153) (k : Fin 51) :
    concatenate S153x51 0 [⟨S51x51, extractStridedSlice S51x51 ![0, 0] x slices_S204x51_S51x51_0_0⟩,
      ⟨S51x51, extractStridedSlice S51x51 ![102, 0] x slices_S204x51_S51x51_102_0⟩,
      ⟨S51x51, extractStridedSlice S51x51 ![153, 0] x slices_S204x51_S51x51_153_0⟩]
      concatenates_S51x51_S51x51_S51x51_S153x51_d0 (ix2 j k) = x (ix2 (pick j) k) := by
  have hj := j.isLt
  by_cases h1 : j.val < 51
  · refine (concatenate_apply_piece (t := S153x51) (0 : Fin 2) _ _ (ix2 j k) 0 ?_ S51x51 (extractStridedSlice S51x51 ![0, 0] x slices_S204x51_S51x51_0_0) ?_ ?_ 0 ?_
      (ix2 ⟨j.val, h1⟩ k) ?_ ?_).trans ?_
    · simp only [List.length_cons, List.length_nil]; omega
    · rfl
    · rfl
    · rfl
    · intro b hb
      match b with
      | ⟨0, _⟩ => exact absurd rfl hb
      | ⟨1, _⟩ => rfl
    · show 0 + (j.val) = j.val
      omega
    · refine extractStridedSlice_apply _ _ _ _ _ ?_
      intro a
      match a with
      | ⟨0, _⟩ =>
        show (pick j).val = 0 + (j.val)
        simp only [pick]; split <;> omega
      | ⟨1, _⟩ => exact (Nat.zero_add k.val).symm
  · by_cases h2 : j.val < 102
    · refine (concatenate_apply_piece (t := S153x51) (0 : Fin 2) _ _ (ix2 j k) 1 ?_ S51x51 (extractStridedSlice S51x51 ![102, 0] x slices_S204x51_S51x51_102_0) ?_ ?_ 51 ?_
        (ix2 ⟨j.val - 51, by omega⟩ k) ?_ ?_).trans ?_
      · simp only [List.length_cons, List.length_nil]; omega
      · rfl
      · rfl
      · rfl
      · intro b hb
        match b with
        | ⟨0, _⟩ => exact absurd rfl hb
        | ⟨1, _⟩ => rfl
      · show 51 + (j.val - 51) = j.val
        omega
      · refine extractStridedSlice_apply _ _ _ _ _ ?_
        intro a
        match a with
        | ⟨0, _⟩ =>
          show (pick j).val = 102 + (j.val - 51)
          simp only [pick]; split <;> omega
        | ⟨1, _⟩ => exact (Nat.zero_add k.val).symm
    · refine (concatenate_apply_piece (t := S153x51) (0 : Fin 2) _ _ (ix2 j k) 2 ?_ S51x51 (extractStridedSlice S51x51 ![153, 0] x slices_S204x51_S51x51_153_0) ?_ ?_ 102 ?_
        (ix2 ⟨j.val - 102, by omega⟩ k) ?_ ?_).trans ?_
      · simp only [List.length_cons, List.length_nil]; omega
      · rfl
      · rfl
      · rfl
      · intro b hb
        match b with
        | ⟨0, _⟩ => exact absurd rfl hb
        | ⟨1, _⟩ => rfl
      · show 102 + (j.val - 102) = j.val
        omega
      · refine extractStridedSlice_apply _ _ _ _ _ ?_
        intro a
        match a with
        | ⟨0, _⟩ =>
          show (pick j).val = 153 + (j.val - 102)
          simp only [pick]; split <;> omega
        | ⟨1, _⟩ => exact (Nat.zero_add k.val).symm

theorem entry_w1 (j : Fin 153) : entW1 m c (ix2 0 j) = argW1 m c (ix2 (pick j) 0) := by
  rw [eW1]
  refine (shapeCast_apply _ _ (ix2 0 j) (ix2 j 0) ?_).trans (packed_col _ j)
  rw [Shape.rowMajor_val_two, Shape.rowMajor_val_two]
  show j.val * 1 + 0 = 0 * 153 + j.val
  omega
theorem entry_b1 (j : Fin 153) : entB1 m c (ix2 0 j) = argBa1 m c (ix1 (pick j)) + argBb1 m c (ix1 (pick j)) := by
  rw [eB1]
  refine (shapeCast_apply _ _ (ix2 0 j) (ix1 j) ?_).trans ((packed_vec _ j).trans (addf_apply _ _ _))
  rw [Shape.rowMajor_val_one, Shape.rowMajor_val_two]
  show j.val = 0 * 153 + j.val
  omega
theorem entry_w2 (k : Fin 51) (j : Fin 153) : entW2 m c (ix2 k j) = argW2 m c (ix2 (pick j) k) := by
  rw [eW2]
  refine (transpose_apply _ _ _ (ix2 k j) (ix2 j k) ?_).trans (packed_mat _ j k)
  intro b
  match b with
  | ⟨0, _⟩ => rfl
  | ⟨1, _⟩ => rfl
theorem entry_b2 (j : Fin 153) : entB2 m c (ix2 0 j) = argBa2 m c (ix1 (pick j)) + argBb2 m c (ix1 (pick j)) := by
  rw [eB2]
  refine (shapeCast_apply _ _ (ix2 0 j) (ix1 j) ?_).trans ((packed_vec _ j).trans (addf_apply _ _ _))
  rw [Shape.rowMajor_val_one, Shape.rowMajor_val_two]
  show j.val = 0 * 153 + j.val
  omega
theorem entry_wl (k : Fin 51) : entWl m c (ix2 k 0) = argWl m c (ix2 0 k) := by
  rw [eWl]
  refine transpose_apply _ _ _ _ _ ?_
  intro b
  match b with
  | ⟨0, _⟩ => rfl
  | ⟨1, _⟩ => rfl
theorem entry_bl : entBl m c (ix2 0 0) = argBl m c (ix1 0) := by
  rw [eBl]
  refine shapeCast_apply _ _ _ _ ?_
  rw [Shape.rowMajor_val_one, Shape.rowMajor_val_two]
  rfl
/-- The input as 409600 rows: row `n` is entry `(n / 2048, n % 2048, 0)` of the argument. -/
theorem entry_x (n : Fin 409600) :
    entX m c (ix2 n 0)
      = argX m c (ix3 ⟨n.val / 2048, by have := n.isLt; omega⟩ ⟨n.val % 2048, Nat.mod_lt _ (by norm_num)⟩ 0) := by
  rw [eX]
  refine shapeCast_apply _ _ _ _ ?_
  rw [Shape.rowMajor_val_three, Shape.rowMajor_val_two]
  show ((n.val / 2048) * 2048 + n.val % 2048) * 1 + 0 = n.val * 1 + 0
  omega

end Cert.KernelIdeal.Entry

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Payload.lean ====
/-
  The kernel body's stored value at a row, from the blocks it loaded.
-/
import proofs.«156167_j22368189678306_1_alg».proof.Proof.Gen.KernelIdeal.Skeleton
import proofs.«156167_j22368189678306_1_alg».proof.Proof.Spec
import proofs.«156167_j22368189678306_1_alg».proof.Proof.LibDot
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.LstmSpec

/-- A column `[a, 1]` broadcast to `[a, b]` reads, at `(p, c)`, the operand's row `p`. -/
private theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two plain matrix products of the body. -/
private theorem dot153_eq : dot_S2048x51_S51x153_S2048x153_1_0_0_1_n_n = DotDims.plain 2048 51 153 := rfl
private theorem dot1_eq : dot_S2048x51_S51x1_S2048x1_1_0_0_1_n_n = DotDims.plain 2048 51 1 := rfl

/-- First-layer stacked pre-activations over the block: `x · w + b`, 2048 × 153. -/
private def g1 (xb : Vec Ideal S2048x1 .f32) (w1r b1r : Vec Ideal S1x153 .f32) : FVec Ideal S2048x153 .f32 :=
  addf (mulf (broadcastTo S2048x153 (shapeCast S2048x1 xb shapeCasts_S2048x1_S2048x1) broadcasts_S2048x1_S2048x153)
          (broadcastTo S2048x153 (shapeCast S1x153 w1r shapeCasts_S1x153_S1x153) broadcasts_S1x153_S2048x153))
    (broadcastTo S2048x153 (shapeCast S1x153 b1r shapeCasts_S1x153_S1x153) broadcasts_S1x153_S2048x153)

/-- A cell's outputs from its packed pre-activations (columns 0–50 input gate, 51–101 candidate, 102–152 output gate). -/
private def cell (g : FVec Ideal S2048x153 .f32) : FVec Ideal S2048x51 .f32 :=
  mulf (logistic (extractStridedSlice S2048x51 ![0, 102] g slices_S2048x153_o0_102_S2048x51))
    (tanh (mulf (logistic (extractStridedSlice S2048x51 ![0, 0] g slices_S2048x153_o0_0_S2048x51))
      (tanh (extractStridedSlice S2048x51 ![0, 51] g slices_S2048x153_o0_51_S2048x51))))

/-- Second-layer stacked pre-activations: `h · W + b`, 2048 × 153. -/
private def g2 (h : FVec Ideal S2048x51 .f32) (w2t : Vec Ideal S51x153 .f32) (b2r : Vec Ideal S1x153 .f32) :
    FVec Ideal S2048x153 .f32 :=
  addf (matmul dot_S2048x51_S51x153_S2048x153_1_0_0_1_n_n none (truncf .bf16 h bitsLt_bf16_f32)
          (truncf .bf16 (shapeCast S51x153 w2t shapeCasts_S51x153_S51x153) bitsLt_bf16_f32)
          (constant S2048x153 .f32 0x00000000#32))
    (broadcastTo S2048x153 (shapeCast S1x153 b2r shapeCasts_S1x153_S1x153) broadcasts_S1x153_S2048x153)

private theorem pay4_eq (xb : Vec Ideal S2048x1 .f32) (w1r b1r : Vec Ideal S1x153 .f32) (w2t : Vec Ideal S51x153 .f32)
    (b2r : Vec Ideal S1x153 .f32) :
    k0_pay4 (F := Ideal) xb w1r b1r w2t b2r
      = truncf .bf16 (cell (g2 (cell (g1 xb w1r b1r)) w2t b2r)) bitsLt_bf16_f32 := rfl

private theorem pay1_eq (wlt : Vec Ideal S51x1 .f32) (blr : Vec Ideal S1x1 .f32) (h : FVec Ideal S2048x51 .bf16) :
    k0_pay1 (F := Ideal) (k0_pay2 wlt) (k0_pay3 blr) h
      = addf (matmul dot_S2048x51_S51x1_S2048x1_1_0_0_1_n_n none h
                (truncf .bf16 (shapeCast S51x1 wlt shapeCasts_S51x1_S51x1) bitsLt_bf16_f32)
                (constant S2048x1 .f32 0x00000000#32))
          (broadcastTo S2048x1 (shapeCast S1x1 blr shapeCasts_S1x1_S1x1) broadcasts_S1x1_S2048x1) := rfl

/-- First-layer pre-activation at a row and packed column. -/
private theorem g1_apply (xb : Vec Ideal S2048x1 .f32) (w1r b1r : Vec Ideal S1x153 .f32) (r : Fin 2048) (j : Fin 153) :
    g1 xb w1r b1r (ix2 r j) = xb (ix2 r 0) * w1r (ix2 0 j) + b1r (ix2 0 j) := by
  unfold g1
  rw [addf_apply, mulf_apply, shapeCast_self, shapeCast_self, shapeCast_self]
  rw [broadcastTo_1b_ab_apply, broadcastTo_1b_ab_apply]
  exact congrArg (fun t => t * w1r (ix2 0 j) + b1r (ix2 0 j)) (bcast_col xb _ r j)

/-- A cell's output at a row and unit, from the three packed columns of that unit. -/
private theorem cell_apply (g : FVec Ideal S2048x153 .f32) (r : Fin 2048) (k : Fin 51) :
    cell g (ix2 r k)
      = cellOut (g (ix2 r ⟨k.val, by have := k.isLt; omega⟩)) (g (ix2 r ⟨51 + k.val, by have := k.isLt; omega⟩))
          (g (ix2 r ⟨102 + k.val, by have := k.isLt; omega⟩)) := by
  unfold cell cellOut
  rw [mulf_apply]
  show Ideal.logistic (extractStridedSlice S2048x51 ![0, 102] g _ (ix2 r k))
      * Ideal.tanh (Ideal.logistic (extractStridedSlice S2048x51 ![0, 0] g _ (ix2 r k))
          * Ideal.tanh (extractStridedSlice S2048x51 ![0, 51] g _ (ix2 r k))) = _
  rw [slice2_axis1_apply 102 g _ r k ⟨102 + k.val, by have := k.isLt; omega⟩ rfl,
    slice2_axis1_apply 51 g _ r k ⟨51 + k.val, by have := k.isLt; omega⟩ rfl,
    slice2_axis1_apply 0 g _ r k ⟨k.val, by have := k.isLt; omega⟩ (by simp)]

/-- Second-layer pre-activation at a row and packed column: a 51-term product sum plus the bias. -/
private theorem g2_apply (h : FVec Ideal S2048x51 .f32) (w2t : Vec Ideal S51x153 .f32) (b2r : Vec Ideal S1x153 .f32)
    (r : Fin 2048) (j : Fin 153) :
    g2 h w2t b2r (ix2 r j) = (∑ k : Fin 51, h (ix2 r k) * w2t (ix2 k j)) + b2r (ix2 0 j) := by
  unfold g2
  rw [addf_apply, shapeCast_self, shapeCast_self, broadcastTo_1b_ab_apply, dot153_eq]
  exact congrArg (· + b2r (ix2 0 j)) (Cert.GNN.matmul_plain_zero_apply none _ _ r j)

section spec

variable (w1 : FVec Ideal ⟨2, ![204, 1]⟩ .f32) (ba1 bb1 : FVec Ideal ⟨1, ![204]⟩ .f32)
  (w2 : FVec Ideal ⟨2, ![204, 51]⟩ .f32) (ba2 bb2 : FVec Ideal ⟨1, ![204]⟩ .f32)
  (xb : Vec Ideal S2048x1 .f32) (w1r b1r : Vec Ideal S1x153 .f32) (w2t : Vec Ideal S51x153 .f32)
  (b2r : Vec Ideal S1x153 .f32)

/-- First-layer pre-activation at packed column `j` is the specification's at stacked row `pick j`. -/
private theorem g1_spec (hw1 : ∀ j : Fin 153, w1r (ix2 0 j) = w1 (ix2 (pick j) 0))
    (hb1 : ∀ j : Fin 153, b1r (ix2 0 j) = ba1 (ix1 (pick j)) + bb1 (ix1 (pick j))) (r : Fin 2048) (j : Fin 153) :
    g1 xb w1r b1r (ix2 r j) = pre1 w1 ba1 bb1 (xb (ix2 r 0)) (pick j) := by
  rw [g1_apply, hw1, hb1]
  rfl

/-- First-layer outputs are the specification's. -/
private theorem h1_spec (hw1 : ∀ j : Fin 153, w1r (ix2 0 j) = w1 (ix2 (pick j) 0))
    (hb1 : ∀ j : Fin 153, b1r (ix2 0 j) = ba1 (ix1 (pick j)) + bb1 (ix1 (pick j))) (r : Fin 2048) (k : Fin 51) :
    cell (g1 xb w1r b1r) (ix2 r k) = hid1 w1 ba1 bb1 (xb (ix2 r 0)) k := by
  rw [cell_apply, g1_spec w1 ba1 bb1 xb w1r b1r hw1 hb1, g1_spec w1 ba1 bb1 xb w1r b1r hw1 hb1,
    g1_spec w1 ba1 bb1 xb w1r b1r hw1 hb1, pick_lo, pick_mid, pick_hi]
  rfl

/-- Second-layer pre-activation at packed column `j` is the specification's at stacked row `pick j`. -/
private theorem g2_spec (hw1 : ∀ j : Fin 153, w1r (ix2 0 j) = w1 (ix2 (pick j) 0))
    (hb1 : ∀ j : Fin 153, b1r (ix2 0 j) = ba1 (ix1 (pick j)) + bb1 (ix1 (pick j)))
    (hw2 : ∀ (k : Fin 51) (j : Fin 153), w2t (ix2 k j) = w2 (ix2 (pick j) k))
    (hb2 : ∀ j : Fin 153, b2r (ix2 0 j) = ba2 (ix1 (pick j)) + bb2 (ix1 (pick j))) (r : Fin 2048) (j : Fin 153) :
    g2 (cell (g1 xb w1r b1r)) w2t b2r (ix2 r j) = pre2 w1 ba1 bb1 w2 ba2 bb2 (xb (ix2 r 0)) (pick j) := by
  rw [g2_apply, hb2]
  unfold pre2
  refine congrArg (· + (ba2 (ix1 (pick j)) + bb2 (ix1 (pick j)))) (Finset.sum_congr rfl fun k _ => ?_)
  rw [h1_spec w1 ba1 bb1 xb w1r b1r hw1 hb1, hw2]

/-- Second-layer outputs are the specification's. -/
private theorem h2_spec (hw1 : ∀ j : Fin 153, w1r (ix2 0 j) = w1 (ix2 (pick j) 0))
    (hb1 : ∀ j : Fin 153, b1r (ix2 0 j) = ba1 (ix1 (pick j)) + bb1 (ix1 (pick j)))
    (hw2 : ∀ (k : Fin 51) (j : Fin 153), w2t (ix2 k j) = w2 (ix2 (pick j) k))
    (hb2 : ∀ j : Fin 153, b2r (ix2 0 j) = ba2 (ix1 (pick j)) + bb2 (ix1 (pick j))) (r : Fin 2048) (k : Fin 51) :
    cell (g2 (cell (g1 xb w1r b1r)) w2t b2r) (ix2 r k) = hid2 w1 ba1 bb1 w2 ba2 bb2 (xb (ix2 r 0)) k := by
  rw [cell_apply, g2_spec w1 ba1 bb1 w2 ba2 bb2 xb w1r b1r w2t b2r hw1 hb1 hw2 hb2,
    g2_spec w1 ba1 bb1 w2 ba2 bb2 xb w1r b1r w2t b2r hw1 hb1 hw2 hb2,
    g2_spec w1 ba1 bb1 w2 ba2 bb2 xb w1r b1r w2t b2r hw1 hb1 hw2 hb2, pick_lo, pick_mid, pick_hi]
  rfl

end spec

theorem pay_apply (w1 : FVec Ideal ⟨2, ![204, 1]⟩ .f32) (ba1 bb1 : FVec Ideal ⟨1, ![204]⟩ .f32)
    (w2 : FVec Ideal ⟨2, ![204, 51]⟩ .f32) (ba2 bb2 : FVec Ideal ⟨1, ![204]⟩ .f32)
    (wl : FVec Ideal ⟨2, ![1, 51]⟩ .f32) (bl : FVec Ideal ⟨1, ![1]⟩ .f32)
    (xb : Vec Ideal S2048x1 .f32) (w1r b1r : Vec Ideal S1x153 .f32) (w2t : Vec Ideal S51x153 .f32)
    (b2r : Vec Ideal S1x153 .f32) (wlt : Vec Ideal S51x1 .f32) (blr : Vec Ideal S1x1 .f32)
    (hw1 : ∀ j : Fin 153, w1r (ix2 0 j) = w1 (ix2 (pick j) 0))
    (hb1 : ∀ j : Fin 153, b1r (ix2 0 j) = ba1 (ix1 (pick j)) + bb1 (ix1 (pick j)))
    (hw2 : ∀ (k : Fin 51) (j : Fin 153), w2t (ix2 k j) = w2 (ix2 (pick j) k))
    (hb2 : ∀ j : Fin 153, b2r (ix2 0 j) = ba2 (ix1 (pick j)) + bb2 (ix1 (pick j)))
    (hwl : ∀ k : Fin 51, wlt (ix2 k 0) = wl (ix2 0 k))
    (hbl : blr (ix2 0 0) = bl (ix1 0))
    (r : Fin 2048) :
    k0_pay1 (F := Ideal) (k0_pay2 wlt) (k0_pay3 blr) (k0_pay4 xb w1r b1r w2t b2r) (ix2 r 0)
      = out w1 ba1 bb1 w2 ba2 bb2 wl bl (xb (ix2 r 0)) := by
  rw [pay4_eq, pay1_eq, addf_apply, shapeCast_self, shapeCast_self, broadcastTo_1b_ab_apply, dot1_eq, hbl]
  refine (congrArg (· + bl (ix1 0)) (Cert.GNN.matmul_plain_zero_apply none _ _ r 0)).trans ?_
  unfold out
  refine congrArg (· + bl (ix1 0)) (Finset.sum_congr rfl fun k _ => ?_)
  show cell (g2 (cell (g1 xb w1r b1r)) w2t b2r) (ix2 r k) * wlt (ix2 k 0) = _
  rw [h2_spec w1 ba1 bb1 w2 ba2 bb2 xb w1r b1r w2t b2r hw1 hb1 hw2 hb2, hwl]

end Cert.KernelIdeal.Payload

end
-- ==== Proof.KernelIdealValue.lean ====
/-
  What the kernel program's result array holds at the ideal values: the specification `G` of the argument arrays.

  The region's output array has 409600 rows, written back 2048 rows at a time: grid point `t` writes rows
  `2048 t … 2048 t + 2047`, and the 200 points cover every row. At point `t` the body sees rows `2048 t …` of the
  flattened input (window 0 moves with the output) and the six packed weight arrays whole (their block index is always
  zero), so row `r` of what it writes back is the read-out of input row `2048 t + r`: the write-back at `t` is block
  `t` of one array `flat`, the read-out of every row. The program's result is that array reshaped to 200 × 2048 × 1,
  and row `n` of the flattened input is entry `(n / 2048, n % 2048, 0)` of the argument: the two reshapes cancel.
-/
import proofs.«156167_j22368189678306_1_alg».proof.Proof.KernelIdealFrame
import proofs.«156167_j22368189678306_1_alg».proof.Proof.EntryVals
import proofs.«156167_j22368189678306_1_alg».proof.Proof.Payload
import proofs.«156167_j22368189678306_1_alg».proof.Proof.Spec
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Around Cert.KernelIdeal.Body Cert.KernelIdeal.Frame
open Cert.KernelIdeal.Entry Cert.KernelIdeal.Payload Cert.LstmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The read-out of every row of the flattened input. -/
def flat (c : Dev nD) : FVec Ideal S409600x1 .f32 := fun i =>
  out (argW1 m c) (argBa1 m c) (argBb1 m c) (argW2 m c) (argBa2 m c) (argBb2 m c) (argWl m c) (argBl m c) (entX m c i)

/-- The printed index maps over the grid: the input rows' window and the output window sit at block `(t, 0)`; the six
    weight windows at block `(0, 0)`. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 200 := by have h := t.isLt; have hN : cfg0.N = 200 := N_0; omega

/-- Row `r` of the input block at point `t` is row `2048 t + r` of the flattened input. -/
theorem blk_x (c : Dev nD) (t : Fin cfg0.N) (r : Fin 2048) :
    iblk m c 0 t (ix2 r 0) = entX m c (ix2 ⟨t.val * 2048 + r.val, by have := t_lt t; have := r.isLt; omega⟩ 0) := by
  obtain ⟨e0, e1, -⟩ := idx_facts t
  show entX m c (((cfg0.win 0).blk t).view.emb (ix2 r 0)) = _
  refine congrArg (entX m c) (funext fun a => Fin.ext ?_)
  match a with
  | ⟨0, _⟩ => show win0_0.index t (0 : Fin 2) * 2048 + 1 * r.val = t.val * 2048 + r.val; omega
  | ⟨1, _⟩ => show win0_0.index t (1 : Fin 2) * 1 + 1 * 0 = 0; omega

/-- The six weight windows' blocks are their whole arrays, at every point. -/
theorem blk_1 (c : Dev nD) (t : Fin cfg0.N) (y : S1x153.Idx) : iblk m c 1 t y = entW1 m c y := by
  obtain ⟨-, -, -, -, e0, e1, -⟩ := idx_facts t
  show entW1 m c (((cfg0.win 1).blk t).view.emb y) = _
  refine congrArg (entW1 m c) (funext fun a => Fin.ext ?_)
  match a with
  | ⟨0, _⟩ => show win0_1.index t (0 : Fin 2) * 1 + 1 * (y 0).val = (y 0).val; omega
  | ⟨1, _⟩ => show win0_1.index t (1 : Fin 2) * 153 + 1 * (y 1).val = (y 1).val; omega
theorem blk_2 (c : Dev nD) (t : Fin cfg0.N) (y : S1x153.Idx) : iblk m c 2 t y = entB1 m c y := by
  obtain ⟨-, -, -, -, -, -, e0, e1, -⟩ := idx_facts t
  show entB1 m c (((cfg0.win 2).blk t).view.emb y) = _
  refine congrArg (entB1 m c) (funext fun a => Fin.ext ?_)
  match a with
  | ⟨0, _⟩ => show win0_2.index t (0 : Fin 2) * 1 + 1 * (y 0).val = (y 0).val; omega
  | ⟨1, _⟩ => show win0_2.index t (1 : Fin 2) * 153 + 1 * (y 1).val = (y 1).val; omega
theorem blk_3 (c : Dev nD) (t : Fin cfg0.N) (y : S51x153.Idx) : iblk m c 3 t y = entW2 m c y := by
  obtain ⟨-, -, -, -, -, -, -, -, e0, e1, -⟩ := idx_facts t
  show entW2 m c (((cfg0.win 3).blk t).view.emb y) = _
  refine congrArg (entW2 m c) (funext fun a => Fin.ext ?_)
  match a with
  | ⟨0, _⟩ => show win0_3.index t (0 : Fin 2) * 51 + 1 * (y 0).val = (y 0).val; omega
  | ⟨1, _⟩ => show win0_3.index t (1 : Fin 2) * 153 + 1 * (y 1).val = (y 1).val; omega
theorem blk_4 (c : Dev nD) (t : Fin cfg0.N) (y : S1x153.Idx) : iblk m c 4 t y = entB2 m c y := by
  obtain ⟨-, -, -, -, -, -, -, -, -, -, e0, e1, -⟩ := idx_facts t
  show entB2 m c (((cfg0.win 4).blk t).view.emb y) = _
  refine congrArg (entB2 m c) (funext fun a => Fin.ext ?_)
  match a with
  | ⟨0, _⟩ => show win0_4.index t (0 : Fin 2) * 1 + 1 * (y 0).val = (y 0).val; omega
  | ⟨1, _⟩ => show win0_4.index t (1 : Fin 2) * 153 + 1 * (y 1).val = (y 1).val; omega
theorem blk_5 (c : Dev nD) (t : Fin cfg0.N) (y : S51x1.Idx) : iblk m c 5 t y = entWl m c y := by
  obtain ⟨-, -, -, -, -, -, -, -, -, -, -, -, e0, e1, -⟩ := idx_facts t
  show entWl m c (((cfg0.win 5).blk t).view.emb y) = _
  refine congrArg (entWl m c) (funext fun a => Fin.ext ?_)
  match a with
  | ⟨0, _⟩ => show win0_5.index t (0 : Fin 2) * 51 + 1 * (y 0).val = (y 0).val; omega
  | ⟨1, _⟩ => show win0_5.index t (1 : Fin 2) * 1 + 1 * (y 1).val = (y 1).val; omega
theorem blk_6 (c : Dev nD) (t : Fin cfg0.N) (y : S1x1.Idx) : iblk m c 6 t y = entBl m c y := by
  obtain ⟨-, -, -, -, -, -, -, -, -, -, -, -, -, -, e0, e1⟩ := idx_facts t
  show entBl m c (((cfg0.win 6).blk t).view.emb y) = _
  refine congrArg (entBl m c) (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Row `r` of what point `t` stores is the read-out of input row `2048 t + r`. -/
theorem stored_row (c : Dev nD) (t : Fin cfg0.N) (r : Fin 2048) :
    stored (F := Ideal) (iblk m c 0 t) (iblk m c 1 t) (iblk m c 2 t) (iblk m c 3 t) (iblk m c 4 t) (iblk m c 5 t) (iblk m c 6 t) (ix2 r 0)
      = flat m c (ix2 ⟨t.val * 2048 + r.val, by have := t_lt t; have := r.isLt; omega⟩ 0) := by
  unfold stored
  simp only [View.ld_unit_zero (S := S2048x1) hz, View.ld_unit_zero (S := S1x153) hz, View.ld_unit_zero (S := S51x153) hz,
    View.ld_unit_zero (S := S51x1) hz, View.ld_unit_zero (S := S1x1) hz]
  refine (pay_apply (argW1 m c) (argBa1 m c) (argBb1 m c) (argW2 m c) (argBa2 m c) (argBb2 m c) (argWl m c) (argBl m c)
    (iblk m c 0 t) (iblk m c 1 t) (iblk m c 2 t) (iblk m c 3 t) (iblk m c 4 t) (iblk m c 5 t) (iblk m c 6 t)
    (fun j => (blk_1 m c t (ix2 0 j)).trans (entry_w1 m c j))
    (fun j => (blk_2 m c t (ix2 0 j)).trans (entry_b1 m c j))
    (fun k j => (blk_3 m c t (ix2 k j)).trans (entry_w2 m c k j))
    (fun j => (blk_4 m c t (ix2 0 j)).trans (entry_b2 m c j))
    (fun k => (blk_5 m c t (ix2 k 0)).trans (entry_wl m c k))
    ((blk_6 m c t (ix2 0 0)).trans (entry_bl m c)) r).trans ?_
  unfold flat
  rw [blk_x]

/-- The write-back at point `t` is block `t` of `flat`. -/
theorem flushed_eq (c : Dev nD) (t : Fin cfg0.N) :
    (dats m 0 c).flushed 7 t = ((cfg0.win 7).blk t).view.read (Elt Ideal) (flat m c) := by
  show (cfg0.win 7).cut (grid0.coords t) ((dats m 0 c).after 7 t) = _
  rw [after7]
  unfold outAt outBuf
  rw [View.canon_unit_zero hz]
  obtain ⟨-, -, e0, e1, -⟩ := idx_facts t
  funext j
  obtain ⟨r, q, rfl⟩ : ∃ (r : Fin 2048) (q : Fin 1), j = ix2 r q := ⟨j 0, j 1, eq_ix2 j⟩
  obtain rfl : q = 0 := Subsingleton.elim _ _
  refine (stored_row m c t r).trans ?_
  show flat m c _ = flat m c (((cfg0.win 7).blk t).view.emb (ix2 r 0))
  refine congrArg (flat m c) (funext fun a => Fin.ext ?_)
  match a with
  | ⟨0, _⟩ => show t.val * 2048 + r.val = win0_7.index t (0 : Fin 2) * 2048 + 1 * r.val; omega
  | ⟨1, _⟩ => show 0 = win0_7.index t (1 : Fin 2) * 1 + 1 * 0; omega

/-- An index of the output array is in point `t`'s block iff its row is among the block's 2048. -/
theorem mem_blk (t : Fin cfg0.N) (i : S409600x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v29).slice (win0_7.rect t)).set ↔ _
  rw [View.set_slice_whole, Rect.mem_set_unit]
  exact Iff.rfl

/-- Every row is written back by the point its row number divided by 2048 names. -/
theorem cover (i : S409600x1.Idx) : ∃ t : Fin cfg0.N, (cfg0.win 7).flush t = true ∧ i ∈ ((cfg0.win 7).blk t).view.set := by
  have hi0 : (i 0).val < 409600 := (i 0).isLt
  have hi1 : (i 1).val < 1 := (i 1).isLt
  let t : Fin cfg0.N := ⟨(i 0).val / 2048, by rw [show cfg0.N = 200 from N_0]; omega⟩
  obtain ⟨-, -, e0, e1, -⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 1 ≤ (i 1).val ∧ (i 1).val < win0_7.index t (1 : Fin 2) * 1 + 1; omega

/-- The region's output array after the run. -/
theorem final (c : Dev nD) : (dats m 0 c).arrAt 7 cfg0.N = flat m c :=
  (dats m 0 c).arrAt_eq_of_cover 7 (flat m c) (fun t _ => flushed_eq m c t) cover

/-- The program's result: the output array reshaped, which is `G` of the arguments. -/
theorem result_eq (c : Dev nD) :
    Pipeline.afterTail₀ cfgs (dats m) 0 (V0 m) [hostOps1] c main_v30
      = G (argW1 m c) (argBa1 m c) (argBb1 m c) (argW2 m c) (argBa2 m c) (argBb2 m c) (argWl m c) (argBl m c) (argX m c) := by
  have hw : Pipeline.withArrays (cfgs 0).spec c (V0 m c) (fun w => (dats m 0 c).arrAt w (cfgs 0).N) (Proc.tc.devRef main_v29)
      = flat m c :=
    (Pipeline.withArrays_arr spec0 launch0.win.arr_inj c _ _ 7).trans (final m c)
  unfold Pipeline.afterTail₀
  show StableHlo.after hostOps1 _ (Proc.devRef .tc main_v30) = _
  after_results
  funext i
  show shapeCast S200x2048x1 (Pipeline.withArrays (cfgs 0).spec c (V0 m c) (fun w => (dats m 0 c).arrAt w (cfgs 0).N)
      (Proc.tc.devRef main_v29)) shapeCasts_S409600x1_S200x2048x1 i = _
  rw [hw]
  have h0 : (i 0).val < 200 := (i 0).isLt
  have h1 : (i 1).val < 2048 := (i 1).isLt
  have h2 : (i 2).val < 1 := (i 2).isLt
  rw [shapeCast_apply (flat m c) shapeCasts_S409600x1_S200x2048x1 i
    (ix2 ⟨(i 0).val * 2048 + (i 1).val, by omega⟩ 0)
    (by rewrite [Shape.rowMajor_val_two, Shape.rowMajor_val_three]
        show ((i 0).val * 2048 + (i 1).val) * 1 + 0 = ((i 0).val * 2048 + (i 1).val) * 1 + (i 2).val
        omega)]
  unfold flat G
  rw [entry_x]
  refine congrArg (fun x => out (argW1 m c) (argBa1 m c) (argBb1 m c) (argW2 m c) (argBa2 m c) (argBb2 m c) (argWl m c) (argBl m c) (argX m c x))
    (funext fun a => Fin.ext ?_)
  match a with
  | ⟨0, _⟩ => show ((i 0).val * 2048 + (i 1).val) / 2048 = (i 0).val; omega
  | ⟨1, _⟩ => show ((i 0).val * 2048 + (i 1).val) % 2048 = (i 1).val; omega
  | ⟨2, _⟩ => show 0 = (i 2).val; omega

/-- The kernel program's run, read: its result array ends at `G` of the arguments, and the arguments end as launched. -/
theorem run : θ_run defs (onTc (τ := τ) (main (F := Ideal))) ⟨m, fun _ => 0, ρ⟩ fun r => ∀ c : Dev nD,
      r.2.mem ((c.tc : Thread nD τ).loc main_v30)
        = G (argW1 m c) (argBa1 m c) (argBb1 m c) (argW2 m c) (argBa2 m c) (argBb2 m c) (argWl m c) (argBl m c) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v30 (Pipeline.mem_restRefs_of main_v30 (by decide) (by decide))).trans (result_eq m c),
    ((h c).2 main_arg0 (Pipeline.mem_restRefs_of main_arg0 (by decide) (by decide))).trans (kept_arg0 m (dats m) c),
    ((h c).2 main_arg1 (Pipeline.mem_restRefs_of main_arg1 (by decide) (by decide))).trans (kept_arg1 m (dats m) c),
    ((h c).2 main_arg2 (Pipeline.mem_restRefs_of main_arg2 (by decide) (by decide))).trans (kept_arg2 m (dats m) c),
    ((h c).2 main_arg3 (Pipeline.mem_restRefs_of main_arg3 (by decide) (by decide))).trans (kept_arg3 m (dats m) c),
    ((h c).2 main_arg4 (Pipeline.mem_restRefs_of main_arg4 (by decide) (by decide))).trans (kept_arg4 m (dats m) c),
    ((h c).2 main_arg5 (Pipeline.mem_restRefs_of main_arg5 (by decide) (by decide))).trans (kept_arg5 m (dats m) c),
    ((h c).2 main_arg6 (Pipeline.mem_restRefs_of main_arg6 (by decide) (by decide))).trans (kept_arg6 m (dats m) c),
    ((h c).2 main_arg7 (Pipeline.mem_restRefs_of main_arg7 (by decide) (by decide))).trans (kept_arg7 m (dats m) c),
    ((h c).2 main_arg8 (Pipeline.mem_restRefs_of main_arg8 (by decide) (by decide))).trans (kept_arg8 m (dats m) c),
    ((h c).2 main_arg9 (Pipeline.mem_restRefs_of main_arg9 (by decide) (by decide))).trans (kept_arg9 m (dats m) c),
    ((h c).2 main_arg10 (Pipeline.mem_restRefs_of main_arg10 (by decide) (by decide))).trans (kept_arg10 m (dats m) c)⟩)
    (run_main (F := Ideal) m ρ)

end Cert.KernelIdeal.Val

end
-- ==== Proof.RefFrame.lean ====
/-
  The reference program has no kernel launch: its frame is its run with the result dropped.
-/
import proofs.«156167_j22368189678306_1_alg».proof.Defs
import proofs.«156167_j22368189678306_1_alg».proof.Proof.Gen.ReferenceIdeal
import proofs.«156167_j22368189678306_1_alg».proof.Proof.Gen.Pre_finite_inputs
import proofs.«156167_j22368189678306_1_alg».proof.Proof.Gen.ReferenceIdeal.Run
import proofs.«156167_j22368189678306_1_alg».proof.Proof.Gen.ReferenceIdeal.Read

noncomputable section

open Idealize.ShloMosaic Idealize.ShloMosaic.TcCoe Idealize.SL.Sem

namespace Cert.Proof.RefFrame

/-- Every weakly fair execution of the reference ends, faults nowhere and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefValue.lean ====
/-
  The reference's result array is the specification `G` of its argument arrays.

  Row by row: the reference flattens the 200 × 2048 × 1 input to 409600 rows of one scalar, applies the two zero-state
  cells and the read-out to every row, and reshapes back. Each stage below is read at one row `n` (and one column), from
  the first cell's stacked pre-activations up to the read-out; the last step shows that the two reshapes cancel, so that
  row `n` of the flattened input is the entry of the input array at the result's own index.
-/
import proofs.«156167_j22368189678306_1_alg».proof.Proof.Gen.ReferenceIdeal.Read
import proofs.«156167_j22368189678306_1_alg».proof.Proof.Spec
import proofs.«156167_j22368189678306_1_alg».proof.Proof.LibDot

noncomputable section

namespace Cert.ReferenceIdeal.RefValue

open Cert.ReferenceIdeal Cert.ReferenceIdeal.Gen Idealize.ShloMosaic Idealize.ShloMosaic.ValueIdx

/-- The single-precision word of the literal `1.0` denotes the extended real one. -/
private theorem one_word : Ideal.ofBits .f32 0x3F800000#32 = 1 := by
  simp [Ideal.ofBits, Ideal.ieee, -EReal.coe_mul]; norm_num

/-- First cell: column `j` of the stacked pre-activations at row `n` is `pre1` at that row's scalar input. -/
private theorem pre1_at (x0 : FVec Ideal S200x2048x1 .f32) (x1 : FVec Ideal S204x1 .f32) (x3 x4 : FVec Ideal S204 .f32)
    (n : Fin 409600) (j : Fin 204) :
    Read.val_main_v6 (F := Ideal) x0 x1 x3 x4 (ix2 n j)
      = Cert.LstmSpec.pre1 x1 x3 x4 (Read.val_main_v0 (F := Ideal) x0 (ix2 n (0 : Fin 1))) j := by
  have e1 : Read.lidx_main_v2 (ix2 n j) 0 = ix2 n (0 : Fin 1) :=
    funext fun a => Fin.ext (by match a with | ⟨0, _⟩ => rfl | ⟨1, _⟩ => rfl)
  have e2 : Read.idx_main_v1 (Read.ridx_main_v2 (ix2 n j) 0) = ix2 j (0 : Fin 1) :=
    funext fun a => Fin.ext (by match a with | ⟨0, _⟩ => rfl | ⟨1, _⟩ => rfl)
  have e3 : Read.idx_main_v4 (Read.idx_main_v5 (ix2 n j)) = ix1 j :=
    funext fun a => Fin.ext (by match a with | ⟨0, _⟩ => rfl)
  rw [Read.val_main_v6_apply, Read.val_main_v2_apply, Read.val_main_v5_apply, Read.val_main_v4_apply,
    Read.val_main_v3_apply, Fin.sum_univ_one, Read.val_main_v1_apply, e1, e2, e3]
  rfl

/-- First cell: unit `k`'s output at row `n`. -/
private theorem hid1_at (x0 : FVec Ideal S200x2048x1 .f32) (x1 : FVec Ideal S204x1 .f32) (x3 x4 : FVec Ideal S204 .f32)
    (n : Fin 409600) (k : Fin 51) :
    Read.val_main_v26 (F := Ideal) x0 x1 x3 x4 (ix2 n k)
      = Cert.LstmSpec.hid1 x1 x3 x4 (Read.val_main_v0 (F := Ideal) x0 (ix2 n (0 : Fin 1))) k := by
  have eI : Read.idx_main_v7 (ix2 n k) = ix2 n (Cert.LstmSpec.rowI k) :=
    funext fun a => Fin.ext (by match a with | ⟨0, _⟩ => rfl | ⟨1, _⟩ => rfl)
  have eG : Read.idx_main_v9 (ix2 n k) = ix2 n (Cert.LstmSpec.rowG k) :=
    funext fun a => Fin.ext (by match a with | ⟨0, _⟩ => rfl | ⟨1, _⟩ => rfl)
  have eO : Read.idx_main_v10 (ix2 n k) = ix2 n (Cert.LstmSpec.rowO k) :=
    funext fun a => Fin.ext (by match a with | ⟨0, _⟩ => rfl | ⟨1, _⟩ => rfl)
  rw [Read.val_main_v26_apply, Read.val_main_v23_apply, Read.val_main_v22_apply, Read.val_main_cst_2_apply,
    Read.val_main_v21_apply, Read.val_main_v20_apply, Read.val_main_cst_1_apply, Read.val_main_v19_apply,
    Read.val_main_v18_apply, Read.val_main_v10_apply, Read.val_main_v25_apply, Read.val_main_v24_apply,
    Read.val_main_v16_apply, Read.val_main_v15_apply, Read.val_main_cst_0_apply, Read.val_main_v14_apply,
    Read.val_main_v13_apply, Read.val_main_cst_apply, Read.val_main_v12_apply, Read.val_main_v11_apply,
    Read.val_main_v7_apply, Read.val_main_v17_apply, Read.val_main_v9_apply, eI, eG, eO, pre1_at, pre1_at, pre1_at,
    Ideal.ofBits_def, one_word]
  rfl

/-- Second cell: column `j` of the stacked pre-activations at row `n`. -/
private theorem pre2_at (x0 : FVec Ideal S200x2048x1 .f32) (x1 : FVec Ideal S204x1 .f32) (x3 x4 : FVec Ideal S204 .f32)
    (x5 : FVec Ideal S204x51 .f32) (x7 x8 : FVec Ideal S204 .f32) (n : Fin 409600) (j : Fin 204) :
    Read.val_main_v32 (F := Ideal) x0 x1 x3 x4 x5 x7 x8 (ix2 n j)
      = Cert.LstmSpec.pre2 x1 x3 x4 x5 x7 x8 (Read.val_main_v0 (F := Ideal) x0 (ix2 n (0 : Fin 1))) j := by
  have e3 : Read.idx_main_v30 (Read.idx_main_v31 (ix2 n j)) = ix1 j :=
    funext fun a => Fin.ext (by match a with | ⟨0, _⟩ => rfl)
  have es : ∀ k : Fin 51,
      (Read.val_main_v26 (F := Ideal) x0 x1 x3 x4) (Read.lidx_main_v28 (ix2 n j) k)
          * (Read.val_main_v27 (F := Ideal) x5) (Read.ridx_main_v28 (ix2 n j) k)
        = Cert.LstmSpec.hid1 x1 x3 x4 (Read.val_main_v0 (F := Ideal) x0 (ix2 n (0 : Fin 1))) k * x5 (ix2 j k) := by
    intro k
    have e1 : Read.lidx_main_v28 (ix2 n j) k = ix2 n k :=
      funext fun a => Fin.ext (by match a with | ⟨0, _⟩ => rfl | ⟨1, _⟩ => rfl)
    have e2 : Read.idx_main_v27 (Read.ridx_main_v28 (ix2 n j) k) = ix2 j k :=
      funext fun a => Fin.ext (by match a with | ⟨0, _⟩ => rfl | ⟨1, _⟩ => rfl)
    rw [Read.val_main_v27_apply, e1, e2, hid1_at]
  rw [Read.val_main_v32_apply, Read.val_main_v28_apply, Read.val_main_v31_apply, Read.val_main_v30_apply,
    Read.val_main_v29_apply, e3, Finset.sum_congr rfl (fun k _ => es k)]
  rfl

/-- Second cell: unit `k`'s output at row `n`. -/
private theorem hid2_at (x0 : FVec Ideal S200x2048x1 .f32) (x1 : FVec Ideal S204x1 .f32) (x3 x4 : FVec Ideal S204 .f32)
    (x5 : FVec Ideal S204x51 .f32) (x7 x8 : FVec Ideal S204 .f32) (n : Fin 409600) (k : Fin 51) :
    Read.val_main_v52 (F := Ideal) x0 x1 x3 x4 x5 x7 x8 (ix2 n k)
      = Cert.LstmSpec.hid2 x1 x3 x4 x5 x7 x8 (Read.val_main_v0 (F := Ideal) x0 (ix2 n (0 : Fin 1))) k := by
  have eI : Read.idx_main_v33 (ix2 n k) = ix2 n (Cert.LstmSpec.rowI k) :=
    funext fun a => Fin.ext (by match a with | ⟨0, _⟩ => rfl | ⟨1, _⟩ => rfl)
  have eG : Read.idx_main_v35 (ix2 n k) = ix2 n (Cert.LstmSpec.rowG k) :=
    funext fun a => Fin.ext (by match a with | ⟨0, _⟩ => rfl | ⟨1, _⟩ => rfl)
  have eO : Read.idx_main_v36 (ix2 n k) = ix2 n (Cert.LstmSpec.rowO k) :=
    funext fun a => Fin.ext (by match a with | ⟨0, _⟩ => rfl | ⟨1, _⟩ => rfl)
  rw [Read.val_main_v52_apply, Read.val_main_v49_apply, Read.val_main_v48_apply, Read.val_main_cst_6_apply,
    Read.val_main_v47_apply, Read.val_main_v46_apply, Read.val_main_cst_5_apply, Read.val_main_v45_apply,
    Read.val_main_v44_apply, Read.val_main_v36_apply, Read.val_main_v51_apply, Read.val_main_v50_apply,
    Read.val_main_v42_apply, Read.val_main_v41_apply, Read.val_main_cst_4_apply, Read.val_main_v40_apply,
    Read.val_main_v39_apply, Read.val_main_cst_3_apply, Read.val_main_v38_apply, Read.val_main_v37_apply,
    Read.val_main_v33_apply, Read.val_main_v43_apply, Read.val_main_v35_apply, eI, eG, eO, pre2_at, pre2_at, pre2_at,
    Ideal.ofBits_def, one_word]
  rfl

/-- The read-out at row `n`. -/
private theorem out_at (x0 : FVec Ideal S200x2048x1 .f32) (x1 : FVec Ideal S204x1 .f32) (x3 x4 : FVec Ideal S204 .f32)
    (x5 : FVec Ideal S204x51 .f32) (x7 x8 : FVec Ideal S204 .f32) (x9 : FVec Ideal S1x51 .f32) (x10 : FVec Ideal S1 .f32)
    (n : Fin 409600) :
    Read.val_main_v57 (F := Ideal) x0 x1 x3 x4 x5 x7 x8 x9 x10 (ix2 n (0 : Fin 1))
      = Cert.LstmSpec.out x1 x3 x4 x5 x7 x8 x9 x10 (Read.val_main_v0 (F := Ideal) x0 (ix2 n (0 : Fin 1))) := by
  have e3 : Read.idx_main_v55 (Read.idx_main_v56 (ix2 n (0 : Fin 1))) = ix1 (0 : Fin 1) :=
    funext fun a => Fin.ext (by match a with | ⟨0, _⟩ => rfl)
  have es : ∀ k : Fin 51,
      (Read.val_main_v52 (F := Ideal) x0 x1 x3 x4 x5 x7 x8) (Read.lidx_main_v54 (ix2 n (0 : Fin 1)) k)
          * (Read.val_main_v53 (F := Ideal) x9) (Read.ridx_main_v54 (ix2 n (0 : Fin 1)) k)
        = Cert.LstmSpec.hid2 x1 x3 x4 x5 x7 x8 (Read.val_main_v0 (F := Ideal) x0 (ix2 n (0 : Fin 1))) k
            * x9 (ix2 (0 : Fin 1) k) := by
    intro k
    have e1 : Read.lidx_main_v54 (ix2 n (0 : Fin 1)) k = ix2 n k :=
      funext fun a => Fin.ext (by match a with | ⟨0, _⟩ => rfl | ⟨1, _⟩ => rfl)
    have e2 : Read.idx_main_v53 (Read.ridx_main_v54 (ix2 n (0 : Fin 1)) k) = ix2 (0 : Fin 1) k :=
      funext fun a => Fin.ext (by match a with | ⟨0, _⟩ => rfl | ⟨1, _⟩ => rfl)
    rw [Read.val_main_v53_apply, e1, e2, hid2_at]
  rw [Read.val_main_v57_apply, Read.val_main_v54_apply, Read.val_main_v56_apply, Read.val_main_v55_apply, e3,
    Finset.sum_congr rfl (fun k _ => es k)]
  rfl

theorem ref_is_G (x0 : FVec Ideal S200x2048x1 .f32) (x1 : FVec Ideal S204x1 .f32) (x3 x4 : FVec Ideal S204 .f32)
    (x5 : FVec Ideal S204x51 .f32) (x7 x8 : FVec Ideal S204 .f32) (x9 : FVec Ideal S1x51 .f32) (x10 : FVec Ideal S1 .f32) :
    Cert.ReferenceIdeal.Read.val_main_v58 (F := Ideal) x0 x1 x3 x4 x5 x7 x8 x9 x10
      = Cert.LstmSpec.G x1 x3 x4 x5 x7 x8 x9 x10 x0 := by
  funext i
  obtain ⟨a, b, c, rfl⟩ : ∃ (a : Fin 200) (b : Fin 2048) (c : Fin 1), i = ix3 a b c := ⟨i 0, i 1, i 2, eq_ix3 i⟩
  have ha := a.isLt
  have hb := b.isLt
  have hc := c.isLt
  -- the row of the flattened input that the result's entry (a, b, c) is computed from
  have e58 : Read.idx_main_v58 (ix3 a b c) = ix2 (⟨a.val * 2048 + b.val, by omega⟩ : Fin 409600) (0 : Fin 1) :=
    funext fun d => Fin.ext (by
      match d with
      | ⟨0, _⟩ => show ((a.val * 2048 + b.val) * 1 + c.val) / 1 = a.val * 2048 + b.val; omega
      | ⟨1, _⟩ => rfl)
  -- and that row of the flattened input is the input's entry (a, b, c): the two reshapes cancel
  have e0 : Read.idx_main_v0 (ix2 (⟨a.val * 2048 + b.val, by omega⟩ : Fin 409600) (0 : Fin 1)) = ix3 a b c :=
    funext fun d => Fin.ext (by
      match d with
      | ⟨0, _⟩ => show ((a.val * 2048 + b.val) * 1 + 0) / 2048 = a.val; omega
      | ⟨1, _⟩ => show ((a.val * 2048 + b.val) * 1 + 0) / 1 % 2048 = b.val; omega
      | ⟨2, _⟩ => show 0 = c.val; omega)
  rw [Read.val_main_v58_apply, e58, out_at, Read.val_main_v0_apply, e0]
  rfl

end Cert.ReferenceIdeal.RefValue

end
-- ==== Proof.lean ====
/-
  A two-layer zero-state LSTM cell with a linear read-out, as a Pallas kernel over a grid of 200 blocks of 2048 scalar
  inputs, against its jnp reference: both compute, for every input `x`,
  `Σ k, h₂ k · w k + b` with `h₂ = cell (W₂ · h₁ + (b₂ + b₂'))`, `h₁ = cell (x · W₁ + (b₁ + b₁'))` and
  `cell z k = σ (z (153 + k)) · tanh (σ (z k) · tanh (z (102 + k)))` (Proof/Spec.lean).

  The kernel picks the three gates it needs (rows 0–50, 102–152, 153–203 of each stacked weight) on the host, by slices
  and a concatenation, and applies the logistic function as one operation; the reference multiplies by all 204 rows,
  slices the gate columns afterwards and spells the logistic as `1 / (1 + exp (-z))`. On the extended reals these
  are the same function operation by operation — the logistic IS that quotient there, a change of float format is the
  identity, a matrix product into a zero accumulator and the host's product are the same sum, and a contraction over one
  index is a product — so no law of arithmetic beyond rewriting is used, and the precondition (finite inputs) is never
  opened.

  The frames: the reference has no kernel launch, its frame is its run (Proof/RefFrame.lean); each kernel program's
  frame runs the region at all 200 grid points around the host operations (Proof/KernelFrame.lean at the word level,
  Proof/KernelIdealFrame.lean at the ideal values). The idealization rewrote no operation, so `preserves` is `True`.
  The value claim: the kernel program's result is `G` of its arguments (Proof/KernelIdealValue.lean), the reference's
  is `G` of its own (Proof/RefValue.lean), and the arguments agree.
-/
import proofs.«156167_j22368189678306_1_alg».proof.Defs
import proofs.«156167_j22368189678306_1_alg».proof.Proof.Gen.Kernel
import proofs.«156167_j22368189678306_1_alg».proof.Proof.Gen.KernelIdeal
import proofs.«156167_j22368189678306_1_alg».proof.Proof.Gen.ReferenceIdeal
import proofs.«156167_j22368189678306_1_alg».proof.Proof.Gen.Pre_finite_inputs
import proofs.«156167_j22368189678306_1_alg».proof.Proof.KernelFrame
import proofs.«156167_j22368189678306_1_alg».proof.Proof.KernelIdealFrame
import proofs.«156167_j22368189678306_1_alg».proof.Proof.KernelIdealValue
import proofs.«156167_j22368189678306_1_alg».proof.Proof.RefFrame
import proofs.«156167_j22368189678306_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame (F := Bits) m ρ

theorem frame_ki : Cert.frame_KernelIdeal := fun m ρ _ => Cert.KernelIdeal.Frame.frame (F := Ideal) m ρ

/-- Both runs end with their result arrays at `G` of their own arguments; the arguments agree entry by entry. -/
theorem algebraic : Cert.algebraic_KernelIdeal_ReferenceIdeal := by
  intro m ρ m' ρ' _ hagree
  refine ⟨fun c => Cert.LstmSpec.G (Cert.KernelIdeal.Entry.argW1 m c) (Cert.KernelIdeal.Entry.argBa1 m c) (Cert.KernelIdeal.Entry.argBb1 m c) (Cert.KernelIdeal.Entry.argW2 m c) (Cert.KernelIdeal.Entry.argBa2 m c) (Cert.KernelIdeal.Entry.argBb2 m c) (Cert.KernelIdeal.Entry.argWl m c) (Cert.KernelIdeal.Entry.argBl m c) (Cert.KernelIdeal.Entry.argX m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, e3, e4, e5, -, e7, e8, e9, e10⟩ := hagree c
  rw [Cert.ReferenceIdeal.Read.val_main_v58_eq, Cert.ReferenceIdeal.RefValue.ref_is_G, e0, e1, e3, e4, e5, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
